-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x150000 : Shape := ⟨2, ![2, 150000]⟩
abbrev S100000 : Shape := ⟨1, ![100000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩
abbrev S1x150000 : Shape := ⟨2, ![1, 150000]⟩
abbrev S150000 : Shape := ⟨1, ![150000]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_
  slices_S2x150000_S1x150000_0_0 : S2x150000.Slices ![0, 0] S1x150000
  shapeCasts_S1x150000_S150000 : S1x150000.ShapeCasts S150000
  bcast_S_S150000 : S_.BroadcastsInDim S150000 (![] : Fin 0 → Fin S150000.rank)
  reducesTo_S150000_S_d0 : S150000.ReducesTo [0] S_

variable [Facts]

def fn_part3 {F : FTy → Type} [FloatOps F] (main_arg1 : IVec S2x150000 32) (main_v43 : IVec S_ 1) (main_v50 : IVec S150000 32) (main_c_18 : IVec S_ 32) : IVec S_ 1 :=
  let main_v51 : IVec S150000 32 := broadcastInDim S150000 ![] bcast_S_S150000 main_c_18
  let main_v52 : IVec S150000 1 := cmpi .sge main_v50 main_v51
  let main_v53 : IVec S1x150000 32 := (extractStridedSlice S1x150000 ![0, 0] · slices_S2x150000_S1x150000_0_0) main_arg1
  let main_v54 : IVec S150000 32 := shapeCast S150000 main_v53 shapeCasts_S1x150000_S150000
  let main_c_19 : IVec S_ 32 := constantI S_ 32 0#32
  let main_v55 : IVec S150000 32 := broadcastInDim S150000 ![] bcast_S_S150000 main_c_19
  let main_v56 : IVec S150000 1 := cmpi .slt main_v54 main_v55
  let main_c_20 : IVec S_ 32 := constantI S_ 32 100000#32
  let main_v57 : IVec S150000 32 := broadcastInDim S150000 ![] bcast_S_S150000 main_c_20
  let main_v58 : IVec S150000 32 := addi main_v54 main_v57
  let main_v59 : IVec S150000 32 := select main_v56 main_v58 main_v54
  let main_c_21 : IVec S_ 32 := constantI S_ 32 99999#32
  let main_v60 : IVec S150000 32 := broadcastInDim S150000 ![] bcast_S_S150000 main_c_21
  let main_v61 : IVec S150000 1 := cmpi .sle main_v59 main_v60
  let main_v62 : IVec S150000 1 := andi main_v52 main_v61
  let main_c_22 : IVec S_ 1 := constantI S_ 1 1#1
  let main_v63 : IVec S_ 1 := (fun x v => Host.reduce IntOp.andi x v reducesTo_S150000_S_d0 h_S_) main_v62 main_c_22
  let main_v64 : IVec S_ 1 := andi main_v43 main_v63
  main_v64

def fn_part2 {F : FTy → Type} [FloatOps F] (main_arg1 : IVec S2x150000 32) (main_arg9 : FVec F S1x1 .f32) (main_arg10 : FVec F S1 .f32) (main_v33 : IVec S_ 1) : IVec S_ 1 :=
  let main_v34 : FVec F S1x1 .f32 := Host.absf main_arg9
  let main_cst_12 : FVec F S_ .f32 := constant S_ .f32 0x7F800000#32
  let main_v35 : FVec F S1x1 .f32 := broadcastInDim S1x1 ![] bcast_S_S1x1 main_cst_12
  let main_v36 : IVec S1x1 1 := cmpf .olt main_v34 main_v35
  let main_c_13 : IVec S_ 1 := constantI S_ 1 1#1
  let main_v37 : IVec S_ 1 := (fun x v => Host.reduce IntOp.andi x v reducesTo_S1x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : IVec S1x150000 32 := (extractStridedSlice S1x150000 ![0, 0] · slices_S2x150000_S1x150000_0_0) main_arg1
  let main_v45 : IVec S150000 32 := shapeCast S150000 main_v44 shapeCasts_S1x150000_S150000
  let main_c_16 : IVec S_ 32 := constantI S_ 32 0#32
  let main_v46 : IVec S150000 32 := broadcastInDim S150000 ![] bcast_S_S150000 main_c_16
  let main_v47 : IVec S150000 1 := cmpi .slt main_v45 main_v46
  let main_c_17 : IVec S_ 32 := constantI S_ 32 100000#32
  let main_v48 : IVec S150000 32 := broadcastInDim S150000 ![] bcast_S_S150000 main_c_17
  let main_v49 : IVec S150000 32 := addi main_v45 main_v48
  let main_v50 : IVec S150000 32 := select main_v47 main_v49 main_v45
  let main_c_18 : IVec S_ 32 := constantI S_ 32 0#32
  fn_part3 (F := F) main_arg1 main_v43 main_v50 main_c_18

def fn_part1 {F : FTy → Type} [FloatOps F] (main_arg1 : IVec S2x150000 32) (main_arg6 : FVec F S512 .f32) (main_arg7 : FVec F S512x1 .f32) (main_arg8 : FVec F S1 .f32) (main_arg9 : FVec F S1x1 .f32) (main_arg10 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1 .f32 := Host.absf main_arg7
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg9 main_arg10 main_v33

def fn {F : FTy → Type} [FloatOps F] (main_arg0 : FVec F S100000x512 .f32) (main_arg1 : IVec S2x150000 32) (main_arg2 : IVec S100000 32) (main_arg3 : FVec F S512x512 .f32) (main_arg4 : FVec F S512 .f32) (main_arg5 : FVec F S512x512 .f32) (main_arg6 : FVec F S512 .f32) (main_arg7 : FVec F S512x1 .f32) (main_arg8 : FVec F S1 .f32) (main_arg9 : FVec F S1x1 .f32) (main_arg10 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg6 main_arg7 main_arg8 main_arg9 main_arg10 main_v13 main_v16
-- ==== Kernel.lean ====
abbrev S100000x512 : Shape := ⟨2, ![100000, 512]⟩
abbrev S2x150000 : Shape := ⟨2, ![2, 150000]⟩
abbrev S100000 : Shape := ⟨1, ![100000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S150000x512 : Shape := ⟨2, ![150000, 512]⟩
abbrev S1x512 : Shape := ⟨2, ![1, 512]⟩
abbrev S100000x1 : Shape := ⟨2, ![100000, 1]⟩
abbrev S2000x512 : Shape := ⟨2, ![2000, 512]⟩
abbrev S2000x1 : Shape := ⟨2, ![2000, 1]⟩
abbrev S64x1 : Shape := ⟨2, ![64, 1]⟩

abbrev nBuf : Space → Nat
  | .hbm => 102
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S2x150000, .i32⟩
  | .hbm, ⟨2, _⟩ => ⟨S100000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S1x1, .f32⟩
  | .hbm, ⟨10, _⟩ => ⟨S1, .f32⟩
  | .hbm, ⟨11, _⟩ => ⟨S1x150000, .i32⟩
  | .hbm, ⟨12, _⟩ => ⟨S150000, .i32⟩
  | .hbm, ⟨13, _⟩ => ⟨S1x150000, .i32⟩
  | .hbm, ⟨14, _⟩ => ⟨S150000, .i32⟩
  | .hbm, ⟨15, _⟩ => ⟨S_, .i32⟩
  | .hbm, ⟨16, _⟩ => ⟨S150000, .i32⟩
  | .hbm, ⟨17, _⟩ => ⟨S150000, .i1⟩
  | .hbm, ⟨18, _⟩ => ⟨S_, .i32⟩
  | .hbm, ⟨19, _⟩ => ⟨S150000, .i32⟩
  | .hbm, ⟨20, _⟩ => ⟨S150000, .i32⟩
  | .hbm, ⟨21, _⟩ => ⟨S150000, .i32⟩
  | .hbm, ⟨22, _⟩ => ⟨S150000x1, .i32⟩
  | .hbm, ⟨23, _⟩ => ⟨S1, .i32⟩
  | .hbm, ⟨24, _⟩ => ⟨S_, .i32⟩
  | .hbm, ⟨25, _⟩ => ⟨S150000x1, .i32⟩
  | .hbm, ⟨26, _⟩ => ⟨S150000x1, .i1⟩
  | .hbm, ⟨27, _⟩ => ⟨S1x1, .i32⟩
  | .hbm, ⟨28, _⟩ => ⟨S150000x1, .i32⟩
  | .hbm, ⟨29, _⟩ => ⟨S150000x1, .i1⟩
  | .hbm, ⟨30, _⟩ => ⟨S150000x1, .i1⟩
  | .hbm, ⟨31, _⟩ => ⟨S_, .i1⟩
  | .hbm, ⟨32, _⟩ => ⟨S150000, .i1⟩
  | .hbm, ⟨33, _⟩ => ⟨S150000x512, .f32⟩
  | .hbm, ⟨34, _⟩ => ⟨S150000x512, .i1⟩
  | .hbm, ⟨35, _⟩ => ⟨S_, .f32⟩
  | .hbm, ⟨36, _⟩ => ⟨S150000x512, .f32⟩
  | .hbm, ⟨37, _⟩ => ⟨S150000x512, .f32⟩
  | .hbm, ⟨38, _⟩ => ⟨S_, .f32⟩
  | .hbm, ⟨39, _⟩ => ⟨S100000x512, .f32⟩
  | .hbm, ⟨40, _⟩ => ⟨S150000x1, .i32⟩
  | .hbm, ⟨41, _⟩ => ⟨S100000x512, .f32⟩
  | .hbm, ⟨42, _⟩ => ⟨S512x512, .bf16⟩
  | .hbm, ⟨43, _⟩ => ⟨S512x512, .bf16⟩
  | .hbm, ⟨44, _⟩ => ⟨S512x1, .bf16⟩
  | .hbm, ⟨45, _⟩ => ⟨S1x512, .f32⟩
  | .hbm, ⟨46, _⟩ => ⟨S1x512, .f32⟩
  | .hbm, ⟨47, _⟩ => ⟨S100000x1, .f32⟩
  | .hbm, ⟨48, _⟩ => ⟨S_, .i32⟩
  | .hbm, ⟨49, _⟩ => ⟨S150000, .i32⟩
  | .hbm, ⟨50, _⟩ => ⟨S150000, .i1⟩
  | .hbm, ⟨51, _⟩ => ⟨S_, .i32⟩
  | .hbm, ⟨52, _⟩ => ⟨S150000, .i32⟩
  | .hbm, ⟨53, _⟩ => ⟨S150000, .i32⟩
  | .hbm, ⟨54, _⟩ => ⟨S150000, .i32⟩
  | .hbm, ⟨55, _⟩ => ⟨S150000x1, .i32⟩
  | .hbm, ⟨56, _⟩ => ⟨S1, .i32⟩
  | .hbm, ⟨57, _⟩ => ⟨S_, .i32⟩
  | .hbm, ⟨58, _⟩ => ⟨S150000x1, .i32⟩
  | .hbm, ⟨59, _⟩ => ⟨S150000x1, .i1⟩
  | .hbm, ⟨60, _⟩ => ⟨S1x1, .i32⟩
  | .hbm, ⟨61, _⟩ => ⟨S150000x1, .i32⟩
  | .hbm, ⟨62, _⟩ => ⟨S150000x1, .i1⟩
  | .hbm, ⟨63, _⟩ => ⟨S150000x1, .i1⟩
  | .hbm, ⟨64, _⟩ => ⟨S_, .i1⟩
  | .hbm, ⟨65, _⟩ => ⟨S150000, .i1⟩
  | .hbm, ⟨66, _⟩ => ⟨S150000x1, .f32⟩
  | .hbm, ⟨67, _⟩ => ⟨S150000x1, .i1⟩
  | .hbm, ⟨68, _⟩ => ⟨S_, .f32⟩
  | .hbm, ⟨69, _⟩ => ⟨S150000x1, .f32⟩
  | .hbm, ⟨70, _⟩ => ⟨S150000x1, .f32⟩
  | .hbm, ⟨71, _⟩ => ⟨S_, .f32⟩
  | .hbm, ⟨72, _⟩ => ⟨S100000x1, .f32⟩
  | .hbm, ⟨73, _⟩ => ⟨S150000x1, .i32⟩
  | .hbm, ⟨74, _⟩ => ⟨S100000x1, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S_, .f32⟩
  | .hbm, ⟨80, _⟩ => ⟨S100000x1, .f32⟩
  | .hbm, ⟨81, _⟩ => ⟨S100000x1, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S_, .f32⟩
  | .hbm, ⟨86, _⟩ => ⟨S100000x1, .f32⟩
  | .hbm, ⟨87, _⟩ => ⟨S100000x1, .f32⟩
  | .hbm, ⟨88, _⟩ => ⟨S_, .f32⟩
  | .hbm, ⟨89, _⟩ => ⟨S64x1, .f32⟩
  | .hbm, ⟨90, _⟩ => ⟨S100000x1, .i32⟩
  | .hbm, ⟨91, _⟩ => ⟨S64x1, .f32⟩
  | .hbm, ⟨92, _⟩ => ⟨S_, .f32⟩
  | .hbm, ⟨93, _⟩ => ⟨S100000x1, .f32⟩
  | .hbm, ⟨94, _⟩ => ⟨S_, .f32⟩
  | .hbm, ⟨95, _⟩ => ⟨S64x1, .f32⟩
  | .hbm, ⟨96, _⟩ => ⟨S100000x1, .i32⟩
  | .hbm, ⟨97, _⟩ => ⟨S64x1, .f32⟩
  | .hbm, ⟨98, _⟩ => ⟨S_, .f32⟩
  | .hbm, ⟨99, _⟩ => ⟨S64x1, .f32⟩
  | .hbm, ⟨100, _⟩ => ⟨S64x1, .f32⟩
  | .hbm, ⟨101, _⟩ => ⟨S64x1, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x1, .bf16⟩
  | .local _ .vmem, ⟨9, _⟩ => ⟨S2000x1, .f32⟩
  | .local _ .vmem, ⟨10, _⟩ => ⟨S2000x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_cst : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v14 : Ref sig .tc := ⟨.hbm, 70, rfl⟩
abbrev main_cst_0 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst_1 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_cst_2 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_cst_3 : Ref sig .tc := ⟨.hbm, 92, rfl⟩
abbrev main_v33 : Ref sig .tc := ⟨.hbm, 93, rfl⟩
abbrev main_cst_4 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_cst_5 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S1_S1x1_1 : S1.BroadcastsInDim S1x1 (![1] : Fin 1 → Fin S1x1.rank)
  bcast_S1x1_S150000x1_0_1 : S1x1.BroadcastsInDim S150000x1 (![0, 1] : Fin 2 → Fin S150000x1.rank)
  reducesTo_S150000x1_S150000_d1 : S150000x1.ReducesTo [1] S150000
  h_S_ : 0 < S_.numel
  bcast_S150000_S150000x512_0 : S150000.BroadcastsInDim S150000x512 (![0] : Fin 1 → Fin S150000x512.rank)
  bcast_S_S150000x512 : S_.BroadcastsInDim S150000x512 (![] : Fin 0 → Fin S150000x512.rank)
  bcast_S_S100000x512 : S_.BroadcastsInDim S100000x512 (![] : Fin 0 → Fin S100000x512.rank)
  bitsLt_bf16_f32 : FTy.bits .bf16 < FTy.bits .f32
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x1_S2000x1_0_0 : ∀ a, (![0, 0] : Fin 2 → Nat) a + S2000x1.size a ≤ S2000x1.size a
  h_S2000x1 : 0 < S2000x1.numel
  bcast_S_S100000x1 : S_.BroadcastsInDim S100000x1 (![] : Fin 0 → Fin S100000x1.rank)
  shapeCasts_S1_S_ : S1.ShapeCasts S_
  shapeCasts_S1x1_S_ : S1x1.ShapeCasts S_
  bcast_S_S64x1 : S_.BroadcastsInDim S64x1 (![] : Fin 0 → Fin S64x1.rank)
  bcast_S100000_S100000x1_0 : S100000.BroadcastsInDim S100000x1 (![0] : Fin 1 → Fin S100000x1.rank)
  gather_S100000x512_S150000x1_S150000x512_1_0_n_n_0_1_1512_wf : GatherDims.WF S100000x512 S150000x1 S150000x512 [1] [0] [] [0] [] 1 ![1, 512]
  scatter_S100000x512_S150000x1_S150000x512_1_0_0_1_wf : ScatterDims.WF S100000x512 S150000x1 S150000x512 [1] [0] [0] 1
  dot_S2000x512_S512x512_S2000x512_1_0_0_1_n_n_wf : DotDims.WF S2000x512 S512x512 S2000x512 [1] [0] [0] [1] [] []
  dot_S2000x512_S512x1_S2000x1_1_0_0_1_n_n_wf : DotDims.WF S2000x512 S512x1 S2000x1 [1] [0] [0] [1] [] []
  gather_S100000x1_S150000x1_S150000x1_1_0_n_n_0_1_11_wf : GatherDims.WF S100000x1 S150000x1 S150000x1 [1] [0] [] [0] [] 1 ![1, 1]
  scatter_S100000x1_S150000x1_S150000x1_1_0_0_1_wf : ScatterDims.WF S100000x1 S150000x1 S150000x1 [1] [0] [0] 1
  scatter_S64x1_S100000x1_S100000x1_1_0_0_1_wf : ScatterDims.WF S64x1 S100000x1 S100000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .bf16 = 32 ∨ (Rect.block (s := S512x1) S512x1.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S100000x1.size a
  hwx0_7 : ∀ i : grid0.Coords, EltTy.bits .f32 = 32 ∨ (Rect.block (s := S100000x1) S2000x1.size (cc0_transform_7 i) (hinb0_7 i)).WholeWords (EltTy.packing .f32)

variable [Facts₀]

def gather_S100000x512_S150000x1_S150000x512_1_0_n_n_0_1_1512 : GatherDims S100000x512 S150000x1 S150000x512 where
  offsetDims := [1]
  collapsedSliceDims := [0]
  operandBatchingDims := []
  startIndicesBatchingDims := []
  startIndexMap := [0]
  indexVectorDim := 1
  sliceSizes := ![1, 512]
  wf := gather_S100000x512_S150000x1_S150000x512_1_0_n_n_0_1_1512_wf
def scatter_S100000x512_S150000x1_S150000x512_1_0_0_1 : ScatterDims S100000x512 S150000x1 S150000x512 where
  updateWindowDims := [1]
  insertedWindowDims := [0]
  scatterDimsToOperandDims := [0]
  indexVectorDim := 1
  wf := scatter_S100000x512_S150000x1_S150000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x1_S2000x1_1_0_0_1_n_n : DotDims S2000x512 S512x1 S2000x1 where
  lhsContracting := [1]
  rhsContracting := [0]
  lhsNonContracting := [0]
  rhsNonContracting := [1]
  lhsBatch := []
  rhsBatch := []
  wf := dot_S2000x512_S512x1_S2000x1_1_0_0_1_n_n_wf
def gather_S100000x1_S150000x1_S150000x1_1_0_n_n_0_1_11 : GatherDims S100000x1 S150000x1 S150000x1 where
  offsetDims := [1]
  collapsedSliceDims := [0]
  operandBatchingDims := []
  startIndicesBatchingDims := []
  startIndexMap := [0]
  indexVectorDim := 1
  sliceSizes := ![1, 1]
  wf := gather_S100000x1_S150000x1_S150000x1_1_0_n_n_0_1_11_wf
def scatter_S100000x1_S150000x1_S150000x1_1_0_0_1 : ScatterDims S100000x1 S150000x1 S150000x1 where
  updateWindowDims := [1]
  insertedWindowDims := [0]
  scatterDimsToOperandDims := [0]
  indexVectorDim := 1
  wf := scatter_S100000x1_S150000x1_S150000x1_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S2000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x150000 : Shape := ⟨2, ![2, 150000]⟩
abbrev S100000 : Shape := ⟨1, ![100000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S150000x512 : Shape := ⟨2, ![150000, 512]⟩
abbrev S1x512 : Shape := ⟨2, ![1, 512]⟩
abbrev S100000x1 : Shape := ⟨2, ![100000, 1]⟩
abbrev S64x1 : Shape := ⟨2, ![64, 1]⟩

abbrev nBuf : Space → Nat
  | .hbm => 82
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x150000, .i32⟩
  | .hbm, ⟨2, _⟩ => ⟨S100000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S1x1, .f32⟩
  | .hbm, ⟨10, _⟩ => ⟨S1, .f32⟩
  | .hbm, ⟨11, _⟩ => ⟨S1x150000, .i32⟩
  | .hbm, ⟨12, _⟩ => ⟨S150000, .i32⟩
  | .hbm, ⟨13, _⟩ => ⟨S1x150000, .i32⟩
  | .hbm, ⟨14, _⟩ => ⟨S150000, .i32⟩
  | .hbm, ⟨15, _⟩ => ⟨S_, .i32⟩
  | .hbm, ⟨16, _⟩ => ⟨S150000, .i32⟩
  | .hbm, ⟨17, _⟩ => ⟨S150000, .i1⟩
  | .hbm, ⟨18, _⟩ => ⟨S_, .i32⟩
  | .hbm, ⟨19, _⟩ => ⟨S150000, .i32⟩
  | .hbm, ⟨20, _⟩ => ⟨S150000, .i32⟩
  | .hbm, ⟨21, _⟩ => ⟨S150000, .i32⟩
  | .hbm, ⟨22, _⟩ => ⟨S150000x1, .i32⟩
  | .hbm, ⟨23, _⟩ => ⟨S150000x512, .f32⟩
  | .hbm, ⟨24, _⟩ => ⟨S_, .f32⟩
  | .hbm, ⟨25, _⟩ => ⟨S100000x512, .f32⟩
  | .hbm, ⟨26, _⟩ => ⟨S150000x1, .i32⟩
  | .hbm, ⟨27, _⟩ => ⟨S100000x512, .f32⟩
  | .hbm, ⟨28, _⟩ => ⟨S100000x512, .f32⟩
  | .hbm, ⟨29, _⟩ => ⟨S100000x512, .f32⟩
  | .hbm, ⟨30, _⟩ => ⟨S1x512, .f32⟩
  | .hbm, ⟨31, _⟩ => ⟨S100000x512, .f32⟩
  | .hbm, ⟨32, _⟩ => ⟨S100000x512, .f32⟩
  | .hbm, ⟨33, _⟩ => ⟨S_, .f32⟩
  | .hbm, ⟨34, _⟩ => ⟨S100000x512, .f32⟩
  | .hbm, ⟨35, _⟩ => ⟨S100000x512, .f32⟩
  | .hbm, ⟨36, _⟩ => ⟨S100000x512, .f32⟩
  | .hbm, ⟨37, _⟩ => ⟨S1x512, .f32⟩
  | .hbm, ⟨38, _⟩ => ⟨S100000x512, .f32⟩
  | .hbm, ⟨39, _⟩ => ⟨S100000x512, .f32⟩
  | .hbm, ⟨40, _⟩ => ⟨S_, .f32⟩
  | .hbm, ⟨41, _⟩ => ⟨S100000x512, .f32⟩
  | .hbm, ⟨42, _⟩ => ⟨S100000x512, .f32⟩
  | .hbm, ⟨43, _⟩ => ⟨S_, .i32⟩
  | .hbm, ⟨44, _⟩ => ⟨S150000, .i32⟩
  | .hbm, ⟨45, _⟩ => ⟨S150000, .i1⟩
  | .hbm, ⟨46, _⟩ => ⟨S_, .i32⟩
  | .hbm, ⟨47, _⟩ => ⟨S150000, .i32⟩
  | .hbm, ⟨48, _⟩ => ⟨S150000, .i32⟩
  | .hbm, ⟨49, _⟩ => ⟨S150000, .i32⟩
  | .hbm, ⟨50, _⟩ => ⟨S150000x1, .i32⟩
  | .hbm, ⟨51, _⟩ => ⟨S150000x512, .f32⟩
  | .hbm, ⟨52, _⟩ => ⟨S_, .f32⟩
  | .hbm, ⟨53, _⟩ => ⟨S100000x512, .f32⟩
  | .hbm, ⟨54, _⟩ => ⟨S150000x1, .i32⟩
  | .hbm, ⟨55, _⟩ => ⟨S100000x512, .f32⟩
  | .hbm, ⟨56, _⟩ => ⟨S100000x512, .f32⟩
  | .hbm, ⟨57, _⟩ => ⟨S100000x1, .f32⟩
  | .hbm, ⟨58, _⟩ => ⟨S1x1, .f32⟩
  | .hbm, ⟨59, _⟩ => ⟨S100000x1, .f32⟩
  | .hbm, ⟨60, _⟩ => ⟨S100000x1, .f32⟩
  | .hbm, ⟨61, _⟩ => ⟨S_, .f32⟩
  | .hbm, ⟨62, _⟩ => ⟨S100000x1, .f32⟩
  | .hbm, ⟨63, _⟩ => ⟨S100000x1, .f32⟩
  | .hbm, ⟨64, _⟩ => ⟨S100000x1, .f32⟩
  | .hbm, ⟨65, _⟩ => ⟨S1x1, .f32⟩
  | .hbm, ⟨66, _⟩ => ⟨S100000x1, .f32⟩
  | .hbm, ⟨67, _⟩ => ⟨S100000x1, .f32⟩
  | .hbm, ⟨68, _⟩ => ⟨S_, .f32⟩
  | .hbm, ⟨69, _⟩ => ⟨S64x1, .f32⟩
  | .hbm, ⟨70, _⟩ => ⟨S100000x1, .i32⟩
  | .hbm, ⟨71, _⟩ => ⟨S64x1, .f32⟩
  | .hbm, ⟨72, _⟩ => ⟨S_, .f32⟩
  | .hbm, ⟨73, _⟩ => ⟨S100000x1, .f32⟩
  | .hbm, ⟨74, _⟩ => ⟨S_, .f32⟩
  | .hbm, ⟨75, _⟩ => ⟨S64x1, .f32⟩
  | .hbm, ⟨76, _⟩ => ⟨S100000x1, .i32⟩
  | .hbm, ⟨77, _⟩ => ⟨S64x1, .f32⟩
  | .hbm, ⟨78, _⟩ => ⟨S_, .f32⟩
  | .hbm, ⟨79, _⟩ => ⟨S64x1, .f32⟩
  | .hbm, ⟨80, _⟩ => ⟨S64x1, .f32⟩
  | .hbm, ⟨81, _⟩ => ⟨S64x1, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  bcast_S_S100000x512 : S_.BroadcastsInDim S100000x512 (![] : Fin 0 → Fin S100000x512.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S_S64x1 : S_.BroadcastsInDim S64x1 (![] : Fin 0 → Fin S64x1.rank)
  bcast_S100000_S100000x1_0 : S100000.BroadcastsInDim S100000x1 (![0] : Fin 1 → Fin S100000x1.rank)
  gather_S100000x512_S150000x1_S150000x512_1_0_n_n_0_1_1512_wf : GatherDims.WF S100000x512 S150000x1 S150000x512 [1] [0] [] [0] [] 1 ![1, 512]
  scatter_S100000x512_S150000x1_S150000x512_1_0_0_1_wf : ScatterDims.WF S100000x512 S150000x1 S150000x512 [1] [0] [0] 1
  dot_S100000x512_S512x512_S100000x512_1_0_0_1_n_n_wf : DotDims.WF S100000x512 S512x512 S100000x512 [1] [0] [0] [1] [] []
  dot_S100000x512_S512x1_S100000x1_1_0_0_1_n_n_wf : DotDims.WF S100000x512 S512x1 S100000x1 [1] [0] [0] [1] [] []
  dot_S100000x1_S1x1_S100000x1_1_0_0_1_n_n_wf : DotDims.WF S100000x1 S1x1 S100000x1 [1] [0] [0] [1] [] []
  scatter_S64x1_S100000x1_S100000x1_1_0_0_1_wf : ScatterDims.WF S64x1 S100000x1 S100000x1 [1] [0] [0] 1

variable [Facts₀]

def gather_S100000x512_S150000x1_S150000x512_1_0_n_n_0_1_1512 : GatherDims S100000x512 S150000x1 S150000x512 where
  offsetDims := [1]
  collapsedSliceDims := [0]
  operandBatchingDims := []
  startIndicesBatchingDims := []
  startIndexMap := [0]
  indexVectorDim := 1
  sliceSizes := ![1, 512]
  wf := gather_S100000x512_S150000x1_S150000x512_1_0_n_n_0_1_1512_wf
def scatter_S100000x512_S150000x1_S150000x512_1_0_0_1 : ScatterDims S100000x512 S150000x1 S150000x512 where
  updateWindowDims := [1]
  insertedWindowDims := [0]
  scatterDimsToOperandDims := [0]
  indexVectorDim := 1
  wf := scatter_S100000x512_S150000x1_S150000x512_1_0_0_1_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def dot_S100000x512_S512x1_S100000x1_1_0_0_1_n_n : DotDims S100000x512 S512x1 S100000x1 where
  lhsContracting := [1]
  rhsContracting := [0]
  lhsNonContracting := [0]
  rhsNonContracting := [1]
  lhsBatch := []
  rhsBatch := []
  wf := dot_S100000x512_S512x1_S100000x1_1_0_0_1_n_n_wf
def dot_S100000x1_S1x1_S100000x1_1_0_0_1_n_n : DotDims S100000x1 S1x1 S100000x1 where
  lhsContracting := [1]
  rhsContracting := [0]
  lhsNonContracting := [0]
  rhsNonContracting := [1]
  lhsBatch := []
  rhsBatch := []
  wf := dot_S100000x1_S1x1_S100000x1_1_0_0_1_n_n_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf

class Facts : Prop extends Facts₀ where

variable [Facts]
-- ==== Proof.Spec.lean ====
/-
  The vocabulary of this certificate's value proof: a graph network of two sum-aggregating layers and a mean pool,
  stated row by row over the extended reals.

  * An EDGE `e` carries a source word and a destination word. Gathering reads the source word signed and clamps it
    into the node range (`rowOf`); scatter-adding reads the destination word signed and drops the edge when it is
    not a node (`tgt`).
  * A NODE ROW goes through two affine maps, each followed by the positive part (`hidRow`), and the second layer's
    first affine map has ONE output column, so it is a weighted sum of the row (`proj`).
-/
import Idealize.ShloMosaic.PureOps.Ideal
import Idealize.ShloMosaic.Lib.ValueIdx

noncomputable section

namespace Cert.Gin

open Idealize.ShloMosaic Idealize.ShloMosaic.ValueIdx

/-- Node features: 100000 nodes, 512 columns. -/
abbrev SNxD : Shape := ⟨2, ![100000, 512]⟩
/-- One column per node. -/
abbrev SNx1 : Shape := ⟨2, ![100000, 1]⟩
/-- Edge messages: 150000 edges, 512 columns. -/
abbrev SExD : Shape := ⟨2, ![150000, 512]⟩
/-- One word (or one column) per edge. -/
abbrev SEx1 : Shape := ⟨2, ![150000, 1]⟩

/-- The node row edge `e` gathers from: its start word read signed, clamped into `[0, 99999]`. -/
def rowOf (idx : IVec SEx1 32) (e : Fin 150000) : Fin 100000 :=
  ⟨min (idx (ix2 e 0)).toInt.toNat 99999, by omega⟩

/-- The node row edge `e`'s update is added to: its start word read signed when that is a node, and no row at all
    (the update is dropped) when it is not. -/
def tgt (idx : IVec SEx1 32) (e : Fin 150000) : Option (Fin 100000) :=
  if h : 0 ≤ (idx (ix2 e 0)).toInt ∧ (idx (ix2 e 0)).toInt < 100000 then
    some ⟨(idx (ix2 e 0)).toInt.toNat, by omega⟩
  else none

/-- One node row through the first layer: `relu (relu (z · A + a) · B + b)`, column by column. -/
def hidRow (z : Fin 512 → EReal) (A : Fin 512 → Fin 512 → EReal) (a : Fin 512 → EReal)
    (B : Fin 512 → Fin 512 → EReal) (b : Fin 512 → EReal) : Fin 512 → EReal :=
  fun k => max ((∑ j, max ((∑ i, z i * A i j) + a j) 0 * B j k) + b k) 0

/-- A row against the one column of the second layer's first weight. -/
def proj (h : Fin 512 → EReal) (w : Fin 512 → EReal) : EReal := ∑ k, h k * w k

/-- The sum of the rows `f (rowOf src e)` over the edges `e` whose destination is node `n`. -/
def gathered {β : Type} [AddCommMonoid β] (src dst : IVec SEx1 32) (f : Fin 100000 → β) (n : Fin 100000) : β :=
  ∑ e ∈ Finset.univ.filter (fun e : Fin 150000 => tgt dst e = some n), f (rowOf src e)

/-- The first layer's input row at node `r`: the sum of the source rows of the edges into `r`, plus the node's own row. -/
def zRow (x : Fin 100000 → Fin 512 → EReal) (src dst : IVec SEx1 32) (r : Fin 100000) : Fin 512 → EReal :=
  fun i => gathered src dst (fun s => x s i) r + x r i

/-- The first layer's output row at node `r`. -/
def hRow (x : Fin 100000 → Fin 512 → EReal) (A : Fin 512 → Fin 512 → EReal) (a : Fin 512 → EReal)
    (B : Fin 512 → Fin 512 → EReal) (b : Fin 512 → EReal) (src dst : IVec SEx1 32) (r : Fin 100000) : Fin 512 → EReal :=
  hidRow (zRow x src dst r) A a B b

/-- The second layer's pre-activation at node `n`, AGGREGATING the 512-wide rows FIRST and projecting the sum. -/
def qRef (x : Fin 100000 → Fin 512 → EReal) (A : Fin 512 → Fin 512 → EReal) (a : Fin 512 → EReal)
    (B : Fin 512 → Fin 512 → EReal) (b : Fin 512 → EReal) (src dst : IVec SEx1 32) (w : Fin 512 → EReal)
    (n : Fin 100000) : EReal :=
  proj (fun k => gathered src dst (fun r => hRow x A a B b src dst r k) n + hRow x A a B b src dst n k) w

/-- The same, PROJECTING every row FIRST and aggregating the scalars. -/
def qKer (x : Fin 100000 → Fin 512 → EReal) (A : Fin 512 → Fin 512 → EReal) (a : Fin 512 → EReal)
    (B : Fin 512 → Fin 512 → EReal) (b : Fin 512 → EReal) (src dst : IVec SEx1 32) (w : Fin 512 → EReal)
    (n : Fin 100000) : EReal :=
  gathered src dst (fun r => proj (hRow x A a B b src dst r) w) n + proj (hRow x A a B b src dst n) w

/-- The second layer after its first affine map: bias, positive part, the 1 × 1 weight, bias. -/
def out2 (q c W d : EReal) : EReal := max (q + c) 0 * W + d

end Cert.Gin

end
-- ==== Proof.Payload.lean ====
/-
  The fused block's one stored value read at an index, over the extended reals.

  One block holds 2000 node rows. The body adds the aggregated row to the node's own row, sends the sum through
  two affine maps, each followed by the positive part, and multiplies the result by the one column of the second
  layer's first weight. Over the extended reals a change of float format is the identity, a cast between equal
  shapes is the identity, and a product accumulated into zero is the plain sum over the contracted axis; so row
  `r` of the stored column is `proj (hidRow z A a B b) w` with `z` the sum of the two input rows.
-/
import proofs.«413825_j74285754351849_2_alg».proof.Proof.Gen.KernelIdeal.Skeleton
import proofs.«413825_j74285754351849_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.Gin

open Cert.KernelIdeal Cert.KernelIdeal.Gen Idealize.ShloMosaic Idealize.ShloMosaic.ValueIdx Idealize.SL.Sem

/-! ## The 2000 × 512 by 512 × 512 product: which operand entries meet at an output entry

The left operand's axis 0 is the output's row and its axis 1 is contracted; the right operand's axis 0 is
contracted and its axis 1 is the output's column. -/

theorem lhs_sq_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_sq_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs_sq_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs_sq_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- Accumulated into zero, the product's entry `(r, c)` is the sum over `k` of left `(r, k)` times right `(k, c)`. -/
theorem mm_sq_apply {φ₁ φ₂ : FTy} (x : FVec Ideal S2000x512 φ₁) (w : FVec Ideal S512x512 φ₂) (r : Fin 2000) (c : Fin 512) :
    matmul dot_S2000x512_S512x512_S2000x512_1_0_0_1_n_n none x w (constant (F := Ideal) S2000x512 .f32 0x00000000#32) (ix2 r c)
      = ∑ k : Fin 512, x (ix2 r k) * w (ix2 k c) := by
  simp only [matmul]
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 r c) ((contrEquiv1 dot_S2000x512_S512x512_S2000x512_1_0_0_1_n_n 512 rfl rfl).symm k) = ix2 r k := funext fun a => Fin.ext (by
    match a with
    | ⟨0, _⟩ => exact lhs_sq_0 _ _
    | ⟨1, _⟩ => exact (lhs_sq_1 _ _).trans hk)
  have er : dot_S2000x512_S512x512_S2000x512_1_0_0_1_n_n.rhsIdx (ix2 r c) ((contrEquiv1 dot_S2000x512_S512x512_S2000x512_1_0_0_1_n_n 512 rfl rfl).symm k) = ix2 k c := funext fun a => Fin.ext (by
    match a with
    | ⟨0, _⟩ => exact (rhs_sq_0 _ _).trans hk
    | ⟨1, _⟩ => exact rhs_sq_1 _ _)
  rw [el, er]

/-! ## The 2000 × 512 by 512 × 1 product: the same axes, one output column -/

theorem lhs_col_0 (i : S2000x1.Idx) (q : dot_S2000x512_S512x1_S2000x1_1_0_0_1_n_n.contr.Idx) :
    (dot_S2000x512_S512x1_S2000x1_1_0_0_1_n_n.lhsIdx i q 0).val = (i 0).val := by
  unfold DotDims.lhsIdx
  rw [dif_neg (show ¬(0 : Fin S2000x512.rank) ∈ dot_S2000x512_S512x1_S2000x1_1_0_0_1_n_n.lhsBatch by decide), dif_pos (show (0 : Fin S2000x512.rank) ∈ dot_S2000x512_S512x1_S2000x1_1_0_0_1_n_n.lhsNonContracting by decide)]
  rfl
theorem lhs_col_1 (i : S2000x1.Idx) (q : dot_S2000x512_S512x1_S2000x1_1_0_0_1_n_n.contr.Idx) :
    (dot_S2000x512_S512x1_S2000x1_1_0_0_1_n_n.lhsIdx i q 1).val = (q ⟨0, by decide⟩).val :=
  dot_S2000x512_S512x1_S2000x1_1_0_0_1_n_n.lhsIdx_val_of_single rfl i q
theorem rhs_col_0 (i : S2000x1.Idx) (q : dot_S2000x512_S512x1_S2000x1_1_0_0_1_n_n.contr.Idx) :
    (dot_S2000x512_S512x1_S2000x1_1_0_0_1_n_n.rhsIdx i q 0).val = (q ⟨0, by decide⟩).val :=
  dot_S2000x512_S512x1_S2000x1_1_0_0_1_n_n.rhsIdx_val_of_single rfl i q
theorem rhs_col_1 (i : S2000x1.Idx) (q : dot_S2000x512_S512x1_S2000x1_1_0_0_1_n_n.contr.Idx) :
    (dot_S2000x512_S512x1_S2000x1_1_0_0_1_n_n.rhsIdx i q 1).val = (i 1).val := by
  unfold DotDims.rhsIdx
  rw [dif_neg (show ¬(1 : Fin S512x1.rank) ∈ dot_S2000x512_S512x1_S2000x1_1_0_0_1_n_n.rhsBatch by decide), dif_pos (show (1 : Fin S512x1.rank) ∈ dot_S2000x512_S512x1_S2000x1_1_0_0_1_n_n.rhsNonContracting by decide)]
  rfl

/-- Accumulated into zero, the one-column product's entry `(r, 0)` is the sum over `k` of left `(r, k)` times right `(k, 0)`. -/
theorem mm_col_apply {φ₁ φ₂ : FTy} (x : FVec Ideal S2000x512 φ₁) (w : FVec Ideal S512x1 φ₂) (r : Fin 2000) :
    matmul dot_S2000x512_S512x1_S2000x1_1_0_0_1_n_n none x w (constant (F := Ideal) S2000x1 .f32 0x00000000#32) (ix2 r 0)
      = ∑ k : Fin 512, x (ix2 r k) * w (ix2 k 0) := by
  simp only [matmul]
  rw [Ideal.matmul_constant_zero_apply, ← Equiv.sum_comp (contrEquiv1 dot_S2000x512_S512x1_S2000x1_1_0_0_1_n_n 512 rfl rfl).symm]
  refine Finset.sum_congr rfl fun k _ => ?_
  have hk := contrEquiv1_symm_val dot_S2000x512_S512x1_S2000x1_1_0_0_1_n_n 512 rfl rfl k
  have el : dot_S2000x512_S512x1_S2000x1_1_0_0_1_n_n.lhsIdx (ix2 r 0) ((contrEquiv1 dot_S2000x512_S512x1_S2000x1_1_0_0_1_n_n 512 rfl rfl).symm k) = ix2 r k := funext fun a => Fin.ext (by
    match a with
    | ⟨0, _⟩ => exact lhs_col_0 _ _
    | ⟨1, _⟩ => exact (lhs_col_1 _ _).trans hk)
  have er : dot_S2000x512_S512x1_S2000x1_1_0_0_1_n_n.rhsIdx (ix2 r 0) ((contrEquiv1 dot_S2000x512_S512x1_S2000x1_1_0_0_1_n_n 512 rfl rfl).symm k) = ix2 k 0 := funext fun a => Fin.ext (by
    match a with
    | ⟨0, _⟩ => exact (rhs_col_0 _ _).trans hk
    | ⟨1, _⟩ => exact rhs_col_1 _ _)
  rw [el, er]

/-! ## One hidden layer of the block -/

/-- One hidden layer as the body computes it on a whole block: the input against a 512 × 512 weight, plus the bias
    row repeated down the block, then the positive part. The body runs this twice. -/
def layer (h : FVec Ideal S2000x512 .f32) (w : FVec Ideal S512x512 .bf16) (b : FVec Ideal S1x512 .f32) : FVec Ideal S2000x512 .f32 :=
  maximumf
    (addf
      (matmul dot_S2000x512_S512x512_S2000x512_1_0_0_1_n_n none (truncf .bf16 h bitsLt_bf16_f32)
        (shapeCast S512x512 w shapeCasts_S512x512_S512x512) (constant S2000x512 .f32 0x00000000#32))
      (broadcastTo S2000x512 (shapeCast S1x512 b shapeCasts_S1x512_S1x512) broadcasts_S1x512_S2000x512))
    (broadcast S2000x512 (Scalar.ofBits .f32 0x00000000#32))

/-- Its entry `(r, c)`: the positive part of row `r` against column `c` of the weight, plus the bias at `c`. -/
theorem layer_apply (h : FVec Ideal S2000x512 .f32) (w : FVec Ideal S512x512 .bf16) (b : FVec Ideal S1x512 .f32)
    (r : Fin 2000) (c : Fin 512) :
    layer h w b (ix2 r c) = max ((∑ k : Fin 512, h (ix2 r k) * w (ix2 k c)) + b (ix2 0 c)) 0 := by
  unfold layer
  rw [maximumf_apply, addf_apply, shapeCast_self, shapeCast_self, mm_sq_apply, broadcastTo_1b_ab_apply, broadcast_apply]
  show max _ (Ideal.ofBits .f32 0x00000000#32) = _
  rw [Ideal.ofBits_zero_f32]
  rfl

/-- The first hidden activation at `(r, j)`: the block's input is the aggregated row plus the node's own row. -/
theorem hid1_apply (v0 v1 : FVec Ideal S2000x512 .f32) (v5 : FVec Ideal S512x512 .bf16) (v8 : FVec Ideal S1x512 .f32)
    (r : Fin 2000) (j : Fin 512) :
    layer (addf (shapeCast S2000x512 v1 shapeCasts_S2000x512_S2000x512) v0) v5 v8 (ix2 r j)
      = max ((∑ i : Fin 512, (v1 (ix2 r i) + v0 (ix2 r i)) * v5 (ix2 i j)) + v8 (ix2 0 j)) 0 := by
  simp only [layer_apply, shapeCast_self, addf_apply]

/-- The second hidden activation at `(r, k)` is the row function `hidRow` of the summed input row, at `k`. -/
theorem hid2_apply (v0 v1 : FVec Ideal S2000x512 .f32) (v5 : FVec Ideal S512x512 .bf16) (v8 : FVec Ideal S1x512 .f32)
    (v15 : FVec Ideal S512x512 .bf16) (v18 : FVec Ideal S1x512 .f32) (r : Fin 2000) (k : Fin 512) :
    layer (layer (addf (shapeCast S2000x512 v1 shapeCasts_S2000x512_S2000x512) v0) v5 v8) v15 v18 (ix2 r k)
      = hidRow (fun i => v1 (ix2 r i) + v0 (ix2 r i)) (fun i j => v5 (ix2 i j)) (fun j => v8 (ix2 0 j))
          (fun j k => v15 (ix2 j k)) (fun k => v18 (ix2 0 k)) k := by
  rw [layer_apply]
  show _ = max ((∑ j : Fin 512, max ((∑ i : Fin 512, (v1 (ix2 r i) + v0 (ix2 r i)) * v5 (ix2 i j)) + v8 (ix2 0 j)) 0
              * v15 (ix2 j k)) + v18 (ix2 0 k)) 0
  simp only [hid1_apply]

/-- The stored column is the second layer's output against the one weight column. -/
theorem pay_eq_layers (v0 v1 : Vec Ideal S2000x512 .f32) (v5 : Vec Ideal S512x512 .bf16) (v8 : Vec Ideal S1x512 .f32)
    (v15 : Vec Ideal S512x512 .bf16) (v18 : Vec Ideal S1x512 .f32) (v25 : Vec Ideal S512x1 .bf16) :
    Cert.KernelIdeal.Gen.k0_pay1 (F := Ideal) v0 v1 v5 v8 v15 v18 v25
      = matmul (F := Ideal) (φ₁ := .bf16) (φ₂ := .bf16) dot_S2000x512_S512x1_S2000x1_1_0_0_1_n_n none
          (truncf .bf16 (layer (layer (addf (shapeCast (α := Ideal .f32) S2000x512 v1 shapeCasts_S2000x512_S2000x512) v0) v5 v8) v15 v18) bitsLt_bf16_f32)
          (shapeCast (α := Ideal .bf16) S512x1 v25 shapeCasts_S512x1_S512x1) (constant S2000x1 .f32 0x00000000#32) := rfl

/-! ## The stored value at row `r` -/

theorem pay_apply (v0 v1 : Vec Ideal S2000x512 .f32) (v5 : Vec Ideal S512x512 .bf16) (v8 : Vec Ideal S1x512 .f32)
    (v15 : Vec Ideal S512x512 .bf16) (v18 : Vec Ideal S1x512 .f32) (v25 : Vec Ideal S512x1 .bf16) (r : Fin 2000) :
    Cert.KernelIdeal.Gen.k0_pay1 (F := Ideal) v0 v1 v5 v8 v15 v18 v25 (ix2 r 0)
      = proj (hidRow (fun i => v1 (ix2 r i) + v0 (ix2 r i)) (fun i j => v5 (ix2 i j)) (fun j => v8 (ix2 0 j))
          (fun j k => v15 (ix2 j k)) (fun k => v18 (ix2 0 k))) (fun k => v25 (ix2 k 0)) := by
  rw [pay_eq_layers, mm_col_apply]
  show _ = ∑ k : Fin 512, hidRow (fun i => v1 (ix2 r i) + v0 (ix2 r i)) (fun i j => v5 (ix2 i j)) (fun j => v8 (ix2 0 j))
          (fun j k => v15 (ix2 j k)) (fun k => v18 (ix2 0 k)) k * v25 (ix2 k 0)
  refine Finset.sum_congr rfl fun k _ => ?_
  rw [truncf_apply, hid2_apply, shapeCast_self]

end Cert.Gin

end
-- ==== Proof.PArr.lean ====
/-
  The region's output as ONE function of whole arrays: entry `(n, 0)` is node `n`'s row of `agg + x` through the two
  affine maps and positive parts of the first layer, then against the one column of the second layer's first weight.
-/
import proofs.«413825_j74285754351849_2_alg».proof.KernelIdeal
import proofs.«413825_j74285754351849_2_alg».proof.Proof.Spec
import Idealize.ShloMosaic.Lib.ValueIdx

noncomputable section

namespace Cert.Gin

open Idealize.ShloMosaic Idealize.ShloMosaic.ValueIdx
open Cert.KernelIdeal

/-- The projected first-layer output, one column, every node. -/
def pArr (x agg : S100000x512.Idx → EReal) (wa : S512x512.Idx → EReal) (ba : S1x512.Idx → EReal)
    (wb : S512x512.Idx → EReal) (bb : S1x512.Idx → EReal) (w2 : S512x1.Idx → EReal) : S100000x1.Idx → EReal :=
  fun i => proj (hidRow (fun k => agg (ix2 (⟨(i 0).val, idx2_lt0 i⟩ : Fin 100000) k) + x (ix2 (⟨(i 0).val, idx2_lt0 i⟩ : Fin 100000) k))
      (fun a b => wa (ix2 a b)) (fun j => ba (ix2 0 j)) (fun j k => wb (ix2 j k)) (fun k => bb (ix2 0 k)))
    (fun k => w2 (ix2 k 0))

/-- At row `n`. -/
theorem pArr_apply (x agg : S100000x512.Idx → EReal) (wa : S512x512.Idx → EReal) (ba : S1x512.Idx → EReal)
    (wb : S512x512.Idx → EReal) (bb : S1x512.Idx → EReal) (w2 : S512x1.Idx → EReal) (n : Fin 100000) :
    pArr x agg wa ba wb bb w2 (ix2 n 0)
      = proj (hidRow (fun k => agg (ix2 n k) + x (ix2 n k)) (fun a b => wa (ix2 a b)) (fun j => ba (ix2 0 j))
          (fun j k => wb (ix2 j k)) (fun k => bb (ix2 0 k))) (fun k => w2 (ix2 k 0)) := rfl

end Cert.Gin

end
-- ==== Proof.KBlocks.lean ====
/-
  The region's one output array, whole: after the run, entry `(n, 0)` holds the projection onto the second layer's
  one column of node `n`'s first-layer output row, computed from the arrays as the region finds them. The grid cuts
  the 100000 node rows into 50 blocks of 2000 rows; point `t` computes rows `2000 t … 2000 t + 1999` from the same
  rows of the feature array and of the aggregated array and from the whole weight arrays, so the blocks are the
  restrictions of ONE function of the whole arrays, and they tile the output.
-/
import proofs.«413825_j74285754351849_2_alg».proof.Proof.KernelIdealFrame
import proofs.«413825_j74285754351849_2_alg».proof.Proof.Payload
import proofs.«413825_j74285754351849_2_alg».proof.Proof.Spec
import proofs.«413825_j74285754351849_2_alg».proof.Proof.PArr
import Idealize.ShloMosaic.Lib.Pipeline.Value
import Idealize.ShloMosaic.Lib.ValueIdx

set_option maxRecDepth 16384

noncomputable section

namespace Cert.Gin

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (m : (ℓ : Loc nD τ sig) → Buf (Elt Ideal) ℓ)

/-- Equal rows, weights and biases give equal projections (a plain congruence, stated once). -/
theorem proj_hidRow_congr {z z' : Fin 512 → EReal} {A A' : Fin 512 → Fin 512 → EReal} {a a' : Fin 512 → EReal}
    {B B' : Fin 512 → Fin 512 → EReal} {b b' : Fin 512 → EReal} {w w' : Fin 512 → EReal}
    (hz : z = z') (hA : A = A') (ha : a = a') (hB : B = B') (hb : b = b') (hw : w = w') :
    proj (hidRow z A a B b) w = proj (hidRow z' A' a' B' b') w' := by
  subst hz hA ha hB hb hw; rfl

theorem zero_offsets : (![0, 0] : Fin 2 → Nat) = fun _ => 0 := funext fun a => by fin_cases a <;> rfl

/-- The printed index maps, decided over the 50 grid points: the two row-blocked inputs and the output sit at block
    `(t, 0)`, the five weight and bias inputs at block `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The arrays as the region finds them, each named at its literal type: node features, aggregated neighbour
    features, the two square weights, the two biases as one row each, the one-column weight. -/
abbrev xA (c : Dev nD) : S100000x512.Idx → EReal := V m c main_arg0
abbrev aggA (c : Dev nD) : S100000x512.Idx → EReal := V m c main_v7
abbrev waA (c : Dev nD) : S512x512.Idx → EReal := V m c main_v8
abbrev baA (c : Dev nD) : S1x512.Idx → EReal := V m c main_v11
abbrev wbA (c : Dev nD) : S512x512.Idx → EReal := V m c main_v9
abbrev bbA (c : Dev nD) : S1x512.Idx → EReal := V m c main_v12
abbrev w2A (c : Dev nD) : S512x1.Idx → EReal := V m c main_v10

set_option maxHeartbeats 4000000 in
/-- WHAT POINT `t` WRITES BACK is block `t` of `pArr` of the arrays as the region finds them. -/
theorem flushed_eq (c : Dev nD) (t : Fin cfg0.N) :
    (dats m 0 c).flushed 7 t = ((cfg0.win 7).blk t).view.read (Elt Ideal)
      (pArr (xA m c) (aggA m c) (waA m c) (baA m c) (wbA m c) (bbA m c) (w2A m c)) := by
  show (cfg0.win 7).cut (grid0.coords t) ((dats m 0 c).after 7 t) = _
  rw [after0_7]
  unfold out0_7
  rw [View.canon_unit_zero zero_offsets]
  simp only [View.ld_unit_zero (S := S2000x512) zero_offsets, View.ld_unit_zero (S := S512x512) zero_offsets,
    View.ld_unit_zero (S := S1x512) zero_offsets, View.ld_unit_zero (S := S512x1) zero_offsets]
  obtain ⟨e00, e01, e10, e11, e20, e21, e30, e31, e40, e41, e50, e51, e60, e61, e70, e71⟩ := block_indices t
  funext j
  obtain ⟨r, q, rfl⟩ : ∃ (r : Fin 2000) (q : Fin 1), j = ix2 r q := ⟨j 0, j 1, eq_ix2 j⟩
  obtain rfl : q = 0 := Subsingleton.elim _ _
  refine (pay_apply (iblk m c 0 t) (iblk m c 1 t) (iblk m c 2 t) (iblk m c 3 t) (iblk m c 4 t) (iblk m c 5 t) (iblk m c 6 t) r).trans ?_
  have hr : r.val < 2000 := r.isLt
  -- the array row this block row is
  have hn : t.val * 2000 + r.val < 100000 := by have := t.isLt; have : t.val < 50 := this; omega
  have hemb7 : ((cfg0.win 7).blk t).view.emb (ix2 r 0) = ix2 (⟨t.val * 2000 + r.val, hn⟩ : Fin 100000) 0 := by
    funext a; apply Fin.ext
    match a with
    | ⟨0, _⟩ => show win0_7.index t (0 : Fin 2) * 2000 + 1 * r.val = t.val * 2000 + r.val; omega
    | ⟨1, _⟩ => show win0_7.index t (1 : Fin 2) * 1 + 1 * 0 = 0; omega
  have hemb1 : ∀ k : Fin 512, ((cfg0.win 1).blk t).view.emb (ix2 r k) = ix2 (⟨t.val * 2000 + r.val, hn⟩ : Fin 100000) k := by
    intro k; have hk : k.val < 512 := k.isLt
    funext a; apply Fin.ext
    match a with
    | ⟨0, _⟩ => show win0_1.index t (0 : Fin 2) * 2000 + 1 * r.val = t.val * 2000 + r.val; omega
    | ⟨1, _⟩ => show win0_1.index t (1 : Fin 2) * 512 + 1 * k.val = k.val; omega
  have hemb0 : ∀ k : Fin 512, ((cfg0.win 0).blk t).view.emb (ix2 r k) = ix2 (⟨t.val * 2000 + r.val, hn⟩ : Fin 100000) k := by
    intro k; have hk : k.val < 512 := k.isLt
    funext a; apply Fin.ext
    match a with
    | ⟨0, _⟩ => show win0_0.index t (0 : Fin 2) * 2000 + 1 * r.val = t.val * 2000 + r.val; omega
    | ⟨1, _⟩ => show win0_0.index t (1 : Fin 2) * 512 + 1 * k.val = k.val; omega
  have hemb2 : ∀ a b : Fin 512, ((cfg0.win 2).blk t).view.emb (ix2 a b) = ix2 a b := by
    intro a b; have ha : a.val < 512 := a.isLt; have hb : b.val < 512 := b.isLt
    funext d; apply Fin.ext
    match d with
    | ⟨0, _⟩ => show win0_2.index t (0 : Fin 2) * 512 + 1 * a.val = a.val; omega
    | ⟨1, _⟩ => show win0_2.index t (1 : Fin 2) * 512 + 1 * b.val = b.val; omega
  have hemb3 : ∀ b : Fin 512, ((cfg0.win 3).blk t).view.emb (ix2 0 b) = ix2 0 b := by
    intro b; have hb : b.val < 512 := b.isLt
    funext d; apply Fin.ext
    match d with
    | ⟨0, _⟩ => show win0_3.index t (0 : Fin 2) * 1 + 1 * 0 = 0; omega
    | ⟨1, _⟩ => show win0_3.index t (1 : Fin 2) * 512 + 1 * b.val = b.val; omega
  have hemb4 : ∀ a b : Fin 512, ((cfg0.win 4).blk t).view.emb (ix2 a b) = ix2 a b := by
    intro a b; have ha : a.val < 512 := a.isLt; have hb : b.val < 512 := b.isLt
    funext d; apply Fin.ext
    match d with
    | ⟨0, _⟩ => show win0_4.index t (0 : Fin 2) * 512 + 1 * a.val = a.val; omega
    | ⟨1, _⟩ => show win0_4.index t (1 : Fin 2) * 512 + 1 * b.val = b.val; omega
  have hemb5 : ∀ b : Fin 512, ((cfg0.win 5).blk t).view.emb (ix2 0 b) = ix2 0 b := by
    intro b; have hb : b.val < 512 := b.isLt
    funext d; apply Fin.ext
    match d with
    | ⟨0, _⟩ => show win0_5.index t (0 : Fin 2) * 1 + 1 * 0 = 0; omega
    | ⟨1, _⟩ => show win0_5.index t (1 : Fin 2) * 512 + 1 * b.val = b.val; omega
  have hemb6 : ∀ a : Fin 512, ((cfg0.win 6).blk t).view.emb (ix2 a 0) = ix2 a 0 := by
    intro a; have ha : a.val < 512 := a.isLt
    funext d; apply Fin.ext
    match d with
    | ⟨0, _⟩ => show win0_6.index t (0 : Fin 2) * 512 + 1 * a.val = a.val; omega
    | ⟨1, _⟩ => show win0_6.index t (1 : Fin 2) * 1 + 1 * 0 = 0; omega
  show _ = pArr (xA m c) (aggA m c) (waA m c) (baA m c) (wbA m c) (bbA m c) (w2A m c) (((cfg0.win 7).blk t).view.emb (ix2 r 0))
  rw [hemb7, pArr_apply]
  refine proj_hidRow_congr ?_ ?_ ?_ ?_ ?_ ?_
  · funext k
    exact congrArg₂ (fun u v : EReal => u + v) (congrArg (aggA m c) (hemb1 k)) (congrArg (xA m c) (hemb0 k))
  · funext a b
    exact congrArg (waA m c) (hemb2 a b)
  · funext b
    exact congrArg (baA m c) (hemb3 b)
  · funext a b
    exact congrArg (wbA m c) (hemb4 a b)
  · funext b
    exact congrArg (bbA m c) (hemb5 b)
  · funext a
    exact congrArg (w2A m c) (hemb6 a)

/-- An index of the output array is in point `t`'s block iff each coordinate is in the block's range on its axis. -/
theorem mem_blk (t : Fin cfg0.N) (i : S100000x1.Idx) :
    i ∈ ((cfg0.win 7).blk t).view.set ↔ ∀ a : Fin 2, win0_7.index t a * S2000x1.size a ≤ (i a).val ∧ (i a).val < win0_7.index t a * S2000x1.size a + S2000x1.size a := by
  show i ∈ ((View.whole main_v13).slice (win0_7.rect t)).set ↔ _
  rw [View.set_slice_whole, Rect.mem_set_unit]
  exact Iff.rfl

/-- Every block of the output is some point's. -/
theorem block_onto : ∀ q : Fin 50, ∃ t : Fin cfg0.N, win0_7.index t = ![q.val, 0] :=
  (by decide +kernel : ∀ q : Fin 50, ∃ t : Fin grid0.N, win0_7.index t = ![q.val, 0])

/-- The 50 blocks of 2000 rows tile the 100000 rows: row `r` is in the block of point `r / 2000`. -/
theorem covered (i : S100000x1.Idx) : ∃ t : Fin cfg0.N, (cfg0.win 7).flush t = true ∧ i ∈ ((cfg0.win 7).blk t).view.set := by
  have hi0 : (i 0).val < 100000 := (i 0).isLt
  have hi1 : (i 1).val < 1 := (i 1).isLt
  obtain ⟨t, ht⟩ := block_onto ⟨(i 0).val / 2000, by omega⟩
  have q0 : win0_7.index t (0 : Fin 2) = (i 0).val / 2000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 1 ≤ (i 1).val ∧ (i 1).val < win0_7.index t (1 : Fin 2) * 1 + 1; omega

/-- THE OUTPUT ARRAY after the run: `pArr` of the arrays as the region finds them. -/
theorem final (c : Dev nD) : (dats m 0 c).arrAt 7 cfg0.N
    = pArr (xA m c) (aggA m c) (waA m c) (baA m c) (wbA m c) (bbA m c) (w2A m c) :=
  (dats m 0 c).arrAt_eq_of_cover 7 _ (fun t _ => flushed_eq m c t) covered

end Cert.Gin

end
-- ==== Proof.IndexOps.lean ====
/-
  The four index operations of the graph network READ AT AN INDEX.

  * GATHERING rows: the result's row `e` is the operand's row at edge `e`'s start word, read signed and clamped
    into the node range; the column is carried over unchanged.
  * SCATTER-ADDING rows: the result's row `n` is the operand's row `n` plus the sum of the update rows of the edges
    whose start word, read signed and NOT clamped, is the node `n`; an edge whose word is not a node adds nothing.
    The library's sum runs over all update ELEMENTS `(e, k')` landing on `(n, k)`; the column is carried over
    unchanged, so those are the `(e, k)` with `e`'s word equal to `n`, and the sum is one over edges.

  Each is proved once, for any extents `N` (nodes), `E` (edges) and `D` (columns), and read at this network's
  two widths, 512 columns and one column.
-/
import proofs.«413825_j74285754351849_2_alg».proof.Proof.Spec
import Idealize.ShloMosaic.PureOps.Ideal
import Idealize.ShloMosaic.PureOps.Ideal.Laws
import Idealize.ShloMosaic.Lib.ValueIdx
import Mathlib.Algebra.BigOperators.Group.Finset.Piecewise

noncomputable section

open scoped BigOperators

namespace Cert.Gin

open Idealize.ShloMosaic Idealize.ShloMosaic.ValueIdx

/-! ## Which of the two axes are kept -/

/-- Of the two axes, axis 1 is not the index-mapped (and collapsed, and inserted) axis 0 … -/
theorem one_not_mem_zero : (1 : Fin 2) ∉ ([0] : List (Fin 2)) := by decide
/-- … so it survives when a gather's collapsed (and its empty list of batching) axes are filtered out … -/
theorem one_mem_kept_app :
    (1 : Fin 2) ∈ (List.finRange 2).filter (fun x : Fin 2 => decide (x ∉ ([0] ++ [] : List (Fin 2)))) := by decide
/-- … and when a scatter's inserted axis is … -/
theorem one_mem_kept : (1 : Fin 2) ∈ (List.finRange 2).filter (fun x : Fin 2 => decide (x ∉ ([0] : List (Fin 2)))) := by
  decide
/-- … while axis 0 itself does not. -/
theorem zero_not_mem_kept :
    (0 : Fin 2) ∉ (List.finRange 2).filter (fun x : Fin 2 => decide (x ∉ ([0] : List (Fin 2)))) := by decide

/-- Two rank-2 indices are equal exactly when their coordinates are. -/
theorem ix2_inj {n0 n1 : Nat} {a a' : Fin n0} {b b' : Fin n1} : ix2 a b = ix2 a' b' ↔ a = a' ∧ b = b' :=
  ⟨fun h => ⟨congrFun h 0, congrFun h 1⟩, fun h => by rw [h.1, h.2]⟩

section Generic
variable {N E D : Nat}

/-! ## Gathering rows, for any extents -/

/-- A gather of whole rows: operand `[N, D]`, one start word per edge `[E, 1]`, result `[E, D]`. -/
abbrev gDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

section Gather
variable (wf : GatherDims.WF ⟨2, ![N, D]⟩ ⟨2, ![E, 1]⟩ ⟨2, ![E, D]⟩ [1] [0] [] [0] [] 1 ![1, D])

/-- On the row axis the operand index is the start word, read signed and clamped to `[0, N − 1]`: the axis is
    collapsed (no offset), not a batching axis, and the slice there has size one. -/
theorem gDims_coord0 {w : Nat} (idx : IVec ⟨2, ![E, 1]⟩ w) (e : Fin E) (k : Fin D) :
    ((gDims N E D wf).operandIdx (ix2 e k) idx 0).val = min (idx (ix2 e 0)).toInt.toNat (N - 1) := by
  show (gDims N E D wf).start (ix2 e k) idx 0 + (gDims N E D wf).batchCoord (ix2 e k) 0
    + (gDims N E D wf).offCoord (ix2 e k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gDims N E D wf).startIndexMap from List.mem_singleton.mpr rfl)]
  have hsi : (gDims N E D wf).siIdx (ix2 e k) ⟨List.idxOf (0 : Fin 2) (gDims N E D wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the column axis the operand index is the result's column: no start word, no batching, the one offset axis. -/
theorem gDims_coord1 {w : Nat} (idx : IVec ⟨2, ![E, 1]⟩ w) (e : Fin E) (k : Fin D) :
    ((gDims N E D wf).operandIdx (ix2 e k) idx 1).val = k.val := by
  show (gDims N E D wf).start (ix2 e k) idx 1 + (gDims N E D wf).batchCoord (ix2 e k) 1
    + (gDims N E D wf).offCoord (ix2 e k) 1 = _
  rw [GatherDims.batchCoord_eq_zero _ _ _ List.not_mem_nil]
  have hs : (gDims N E D wf).start (ix2 e k) idx 1 = 0 := by
    unfold GatherDims.start
    rw [dif_neg one_not_mem_zero]
  have ho : (gDims N E D wf).offCoord (ix2 e k) 1 = k.val := by
    unfold GatherDims.offCoord
    have h1 : (1 : Fin 2) ∈ (gDims N E D wf).sKept := one_mem_kept_app
    rw [dif_pos h1]
    rfl
  rw [hs, ho]; simp

/-- The operand index of result element `(e, k)`: row the clamped start word of edge `e`, column `k`. -/
theorem gDims_operandIdx {w : Nat} (hN : 0 < N) (idx : IVec ⟨2, ![E, 1]⟩ w) (e : Fin E) (k : Fin D) :
    (gDims N E D wf).operandIdx (ix2 e k) idx = ix2 ⟨min (idx (ix2 e 0)).toInt.toNat (N - 1), by omega⟩ k := by
  funext a
  refine Fin.ext ?_
  match a with
  | ⟨0, _⟩ => exact gDims_coord0 wf idx e k
  | ⟨1, _⟩ => exact gDims_coord1 wf idx e k

end Gather

/-! ## Scatter-adding rows, for any extents -/

/-- A scatter of whole rows: operand `[N, D]`, one start word per edge `[E, 1]`, updates `[E, D]`. -/
abbrev sDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The node an edge's update goes to: its start word read signed when that is below `N`, and none otherwise. -/
def tgtN (N : Nat) {E w : Nat} (idx : IVec ⟨2, ![E, 1]⟩ w) (e : Fin E) : Option (Fin N) :=
  if h : 0 ≤ (idx (ix2 e 0)).toInt ∧ (idx (ix2 e 0)).toInt < N then
    some ⟨(idx (ix2 e 0)).toInt.toNat, by omega⟩
  else none

section Scatter
variable (wf : ScatterDims.WF ⟨2, ![N, D]⟩ ⟨2, ![E, 1]⟩ ⟨2, ![E, D]⟩ [1] [0] [0] 1)

/-- On the row axis the window starts at edge `e`'s start word, read signed … -/
theorem sDims_start0 {w : Nat} (idx : IVec ⟨2, ![E, 1]⟩ w) (e : Fin E) (k : Fin D) :
    (sDims N E D wf).start (ix2 e k) idx 0 = (idx (ix2 e 0)).toInt := by
  unfold ScatterDims.start
  rw [dif_pos (show (0 : Fin 2) ∈ (sDims N E D wf).scatterDimsToOperandDims from List.mem_singleton.mpr rfl)]
  have hsi : (sDims N E D wf).siIdx (ix2 e k) ⟨List.idxOf (0 : Fin 2) (sDims N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis at 0. -/
theorem sDims_start1 {w : Nat} (idx : IVec ⟨2, ![E, 1]⟩ w) (e : Fin E) (k : Fin D) :
    (sDims N E D wf).start (ix2 e k) idx 1 = 0 := by
  unfold ScatterDims.start
  rw [dif_neg one_not_mem_zero]

/-- The row axis is inserted: no window coordinate there … -/
theorem sDims_window0 (e : Fin E) (k : Fin D) : (sDims N E D wf).window (ix2 e k) 0 = 0 := by
  unfold ScatterDims.window
  have h0 : (0 : Fin 2) ∉ (sDims N E D wf).sKept := zero_not_mem_kept
  rw [dif_neg h0]

/-- … and the column axis carries the update's column. -/
theorem sDims_window1 (e : Fin E) (k : Fin D) : (sDims N E D wf).window (ix2 e k) 1 = k.val := by
  unfold ScatterDims.window
  have h1 : (1 : Fin 2) ∈ (sDims N E D wf).sKept := one_mem_kept
  rw [dif_pos h1]
  rfl

/-- Start plus window coordinate on the row axis: the start word. -/
theorem sDims_sum0 {w : Nat} (idx : IVec ⟨2, ![E, 1]⟩ w) (e : Fin E) (k : Fin D) :
    (sDims N E D wf).start (ix2 e k) idx 0 + ((sDims N E D wf).window (ix2 e k) 0 : Int) = (idx (ix2 e 0)).toInt := by
  rw [sDims_start0, sDims_window0]; simp

/-- Start plus window coordinate on the column axis: the column. -/
theorem sDims_sum1 {w : Nat} (idx : IVec ⟨2, ![E, 1]⟩ w) (e : Fin E) (k : Fin D) :
    (sDims N E D wf).start (ix2 e k) idx 1 + ((sDims N E D wf).window (ix2 e k) 1 : Int) = (k.val : Int) := by
  rw [sDims_start1, sDims_window1]; simp

/-- Where update element `(e, k)` lands: at `(n, k)` when edge `e`'s start word is the node `n`, nowhere when it is
    not a node (the column is always in range). -/
theorem sDims_resultIdx {w : Nat} (idx : IVec ⟨2, ![E, 1]⟩ w) (e : Fin E) (k : Fin D) :
    (sDims N E D wf).resultIdx? (ix2 e k) idx = (tgtN N idx e).map (fun n => ix2 n k) := by
  unfold tgtN
  by_cases h : 0 ≤ (idx (ix2 e 0)).toInt ∧ (idx (ix2 e 0)).toInt < N
  · rw [dif_pos h, Option.map_some]
    unfold ScatterDims.resultIdx?
    split
    · congr 1
      funext a
      refine Fin.ext ?_
      match a with
      | ⟨0, _⟩ =>
        exact (show ((sDims N E D wf).start (ix2 e k) idx 0 + ((sDims N E D wf).window (ix2 e k) 0 : Int)).toNat
          = (idx (ix2 e 0)).toInt.toNat by rw [sDims_sum0])
      | ⟨1, _⟩ =>
        exact (show ((sDims N E D wf).start (ix2 e k) idx 1 + ((sDims N E D wf).window (ix2 e k) 1 : Int)).toNat
          = k.val by rw [sDims_sum1]; simp)
    · rename_i H
      refine absurd (fun a => ?_) H
      match a with
      | ⟨0, _⟩ =>
        exact (show 0 ≤ (sDims N E D wf).start (ix2 e k) idx 0 + ((sDims N E D wf).window (ix2 e k) 0 : Int)
          ∧ (sDims N E D wf).start (ix2 e k) idx 0 + ((sDims N E D wf).window (ix2 e k) 0 : Int) < (N : Int) by
            rw [sDims_sum0]; exact h)
      | ⟨1, _⟩ =>
        exact (show 0 ≤ (sDims N E D wf).start (ix2 e k) idx 1 + ((sDims N E D wf).window (ix2 e k) 1 : Int)
          ∧ (sDims N E D wf).start (ix2 e k) idx 1 + ((sDims N E D wf).window (ix2 e k) 1 : Int) < (D : Int) by
            rw [sDims_sum1]; have := k.isLt; omega)
  · rw [dif_neg h, Option.map_none]
    unfold ScatterDims.resultIdx?
    split
    · rename_i H
      refine absurd ?_ h
      have h0 := H 0
      rw [sDims_sum0] at h0
      exact h0
    · rfl

/-- Update element `(e, k')` lands on `(n, k)` exactly when edge `e`'s start word is the node `n` and `k' = k`. -/
theorem sDims_resultIdx_eq_some_iff {w : Nat} (idx : IVec ⟨2, ![E, 1]⟩ w) (e : Fin E) (k' : Fin D) (n : Fin N) (k : Fin D) :
    (sDims N E D wf).resultIdx? (ix2 e k') idx = some (ix2 n k) ↔ tgtN N idx e = some n ∧ k' = k := by
  rw [sDims_resultIdx]
  cases tgtN N idx e with
  | none => simp
  | some m => simp only [Option.map_some, Option.some.injEq]; exact ix2_inj

/-- THE SCATTER-ADD READ AT `(n, k)`: the operand there plus the sum, over the edges whose start word is the node
    `n`, of their update rows at column `k`. -/
theorem sDims_scatterAdd_apply {w : Nat} (x : FVec Ideal ⟨2, ![N, D]⟩ .f32) (idx : IVec ⟨2, ![E, 1]⟩ w)
    (upd : FVec Ideal ⟨2, ![E, D]⟩ .f32) (n : Fin N) (k : Fin D) :
    Host.scatterAdd (F := Ideal) (sDims N E D wf) x idx upd (ix2 n k)
      = x (ix2 n k) + ∑ e ∈ Finset.univ.filter (fun e : Fin E => tgtN N idx e = some n), upd (ix2 e k) := by
  unfold Host.scatterAdd
  rw [Ideal.hostScatterAdd_def]
  unfold Ideal.hostScatterAdd
  congr 1
  rw [Finset.sum_filter, Finset.sum_filter, sum_idx2]
  refine Finset.sum_congr rfl fun e _ => ?_
  simp only [sDims_resultIdx_eq_some_iff]
  by_cases h : tgtN N idx e = some n
  · simp [h]
  · simp [h]

end Scatter

end Generic

/-! ## This network's four records -/

/-- Gathering 512-column rows: `x[src]`. -/
abbrev gRow (wf : GatherDims.WF SNxD SEx1 SExD [1] [0] [] [0] [] 1 ![1, 512]) : GatherDims SNxD SEx1 SExD where
  offsetDims := [1]
  collapsedSliceDims := [0]
  operandBatchingDims := []
  startIndicesBatchingDims := []
  startIndexMap := [0]
  indexVectorDim := 1
  sliceSizes := ![1, 512]
  wf := wf

/-- Gathering one-column rows. -/
abbrev gCol (wf : GatherDims.WF SNx1 SEx1 SEx1 [1] [0] [] [0] [] 1 ![1, 1]) : GatherDims SNx1 SEx1 SEx1 where
  offsetDims := [1]
  collapsedSliceDims := [0]
  operandBatchingDims := []
  startIndicesBatchingDims := []
  startIndexMap := [0]
  indexVectorDim := 1
  sliceSizes := ![1, 1]
  wf := wf

/-- Scatter-adding 512-column rows: the segment sum over destinations. -/
abbrev sRow (wf : ScatterDims.WF SNxD SEx1 SExD [1] [0] [0] 1) : ScatterDims SNxD SEx1 SExD where
  updateWindowDims := [1]
  insertedWindowDims := [0]
  scatterDimsToOperandDims := [0]
  indexVectorDim := 1
  wf := wf

/-- Scatter-adding one-column rows. -/
abbrev sCol (wf : ScatterDims.WF SNx1 SEx1 SEx1 [1] [0] [0] 1) : ScatterDims SNx1 SEx1 SEx1 where
  updateWindowDims := [1]
  insertedWindowDims := [0]
  scatterDimsToOperandDims := [0]
  indexVectorDim := 1
  wf := wf

/-- The destination of an edge, as this network states it, is the general one at 100000 nodes. -/
theorem tgt_eq (idx : IVec SEx1 32) (e : Fin 150000) : tgt idx e = tgtN 100000 idx e := rfl

/-! ## The four operations at an index -/

/-- Gathered row `e`, column `k`: the operand's row `rowOf idx e`, column `k`. -/
theorem gather_row_apply (wf : GatherDims.WF SNxD SEx1 SExD [1] [0] [] [0] [] 1 ![1, 512]) {α : Type}
    (x : SNxD.Idx → α) (idx : IVec SEx1 32) (e : Fin 150000) (k : Fin 512) :
    Host.gather (gRow wf) x idx (ix2 e k) = x (ix2 (rowOf idx e) k) :=
  congrArg x (gDims_operandIdx (N := 100000) (E := 150000) (D := 512) wf (by decide) idx e k)

/-- The same for one-column rows. -/
theorem gather_col_apply (wf : GatherDims.WF SNx1 SEx1 SEx1 [1] [0] [] [0] [] 1 ![1, 1]) {α : Type}
    (x : SNx1.Idx → α) (idx : IVec SEx1 32) (e : Fin 150000) (k : Fin 1) :
    Host.gather (gCol wf) x idx (ix2 e k) = x (ix2 (rowOf idx e) k) :=
  congrArg x (gDims_operandIdx (N := 100000) (E := 150000) (D := 1) wf (by decide) idx e k)

/-- Scatter-added row `n`, column `k`: the operand there plus the updates of the edges whose destination is `n`. -/
theorem scatterAdd_row_apply (wf : ScatterDims.WF SNxD SEx1 SExD [1] [0] [0] 1) (x : FVec Ideal SNxD .f32)
    (idx : IVec SEx1 32) (upd : FVec Ideal SExD .f32) (n : Fin 100000) (k : Fin 512) :
    Host.scatterAdd (F := Ideal) (sRow wf) x idx upd (ix2 n k)
      = x (ix2 n k) + ∑ e ∈ Finset.univ.filter (fun e : Fin 150000 => tgt idx e = some n), upd (ix2 e k) := by
  simp only [tgt_eq]
  exact sDims_scatterAdd_apply (N := 100000) (E := 150000) (D := 512) wf x idx upd n k

/-- The same for one-column rows. -/
theorem scatterAdd_col_apply (wf : ScatterDims.WF SNx1 SEx1 SEx1 [1] [0] [0] 1) (x : FVec Ideal SNx1 .f32)
    (idx : IVec SEx1 32) (upd : FVec Ideal SEx1 .f32) (n : Fin 100000) (k : Fin 1) :
    Host.scatterAdd (F := Ideal) (sCol wf) x idx upd (ix2 n k)
      = x (ix2 n k) + ∑ e ∈ Finset.univ.filter (fun e : Fin 150000 => tgt idx e = some n), upd (ix2 e k) := by
  simp only [tgt_eq]
  exact sDims_scatterAdd_apply (N := 100000) (E := 150000) (D := 1) wf x idx upd n k

end Cert.Gin

end
-- ==== Proof.KHost.lean ====
/-
  The host operations of the kernel's program around its fused region, as pure functions of the arrays they read,
  and what each computes at an index.

  * The start words of the edges are wrapped once (a negative word has the node count added: `kWrap`), laid out as
    one column (`kIdxB`), tested against the node range (`kMask`) and used to gather rows (`kTakeRows`,
    `kTakeCol`): a gathered row whose wrapped word is out of range is replaced by a not-a-number row.  Where every
    wrapped word is in range the mask is all ones and the gather is the plain one.
  * The gathered rows are added up by destination (`kAgg`: a scatter-add into zeros), which is the aggregate the
    first layer reads; after the fused region the projected column is gathered and added up the same way, the node's
    own entry is added, and the second layer's bias, positive part, 1 × 1 weight and bias follow (`kH2`).
  * The pooled output is the per-graph sum of those entries over the per-graph node count, at least one (`kOut`).
-/
import proofs.«413825_j74285754351849_2_alg».proof.KernelIdeal
import proofs.«413825_j74285754351849_2_alg».proof.Proof.Gen.KernelIdeal
import proofs.«413825_j74285754351849_2_alg».proof.Proof.Spec
import proofs.«413825_j74285754351849_2_alg».proof.Proof.IndexOps
import Idealize.ShloMosaic.Lib.Pipeline.Value
import Idealize.ShloMosaic.Lib.ReduceAll
import Idealize.ShloMosaic.Lib.IdealHost
import Idealize.ShloMosaic.Lib.ValueLayout
import Idealize.ShloMosaic.PureOps.Ideal.Laws

set_option synthInstance.maxSize 4096

noncomputable section

namespace Cert.Gin

open Idealize.ShloMosaic Idealize.ShloMosaic.ValueIdx Idealize.SL.Sem
open Cert.KernelIdeal Cert.KernelIdeal.Facts₀ Cert.KernelIdeal.Facts

variable {F : FTy → Type} [FloatOps F]

/-! ## The operations, as the program prints them -/

/-- A start word below zero has the node count added: the gather's index wrap. -/
def kWrap (s : IVec S150000 32) : IVec S150000 32 :=
  select (cmpi .slt s (broadcastInDim S150000 ![] bcast_S_S150000 (constantI S_ 32 0#32)))
    (addi s (broadcastInDim S150000 ![] bcast_S_S150000 (constantI S_ 32 100000#32))) s

/-- The wrapped start words as one column. -/
def kIdxB (s : IVec S150000 32) : IVec S150000x1 32 :=
  broadcastInDim S150000x1 ![0] bcast_S150000_S150000x1_0 (kWrap s)

/-- Per edge: is the wrapped start word a node, `0 ≤ · ≤ 99999`? -/
def kMask (s : IVec S150000 32) : IVec S150000 1 :=
  (fun x v => Host.reduce IntOp.andi x v reducesTo_S150000x1_S150000_d1 h_S_)
    (andi (cmpi .sge (kIdxB s) (broadcastInDim S150000x1 ![] bcast_S_S150000x1 (constantI S_ 32 0#32)))
      (cmpi .sle (kIdxB s) (broadcastInDim S150000x1 ![0, 1] bcast_S1x1_S150000x1_0_1
        (broadcastInDim S1x1 ![1] bcast_S1_S1x1_1 (constantI S1 32 99999#32)))))
    (constantI S_ 1 1#1)

/-- The gathered 512-column rows, a row whose wrapped word is no node replaced by not-a-number. -/
def kTakeRows (x : FVec F S100000x512 .f32) (s : IVec S150000 32) : FVec F S150000x512 .f32 :=
  select (broadcastInDim S150000x512 ![0] bcast_S150000_S150000x512_0 (kMask s))
    (Host.gather gather_S100000x512_S150000x1_S150000x512_1_0_n_n_0_1_1512 x (kIdxB s))
    (broadcastInDim S150000x512 ![] bcast_S_S150000x512 (constant S_ .f32 0x7FC00000#32))

/-- The same for a one-column array. -/
def kTakeCol (p : FVec F S100000x1 .f32) (s : IVec S150000 32) : FVec F S150000x1 .f32 :=
  select (broadcastInDim S150000x1 ![0] bcast_S150000_S150000x1_0 (kMask s))
    (Host.gather gather_S100000x1_S150000x1_S150000x1_1_0_n_n_0_1_11 p (kIdxB s))
    (broadcastInDim S150000x1 ![] bcast_S_S150000x1 (constant S_ .f32 0x7FC00000#32))

/-- The destination words as one column. -/
def kDstB (d : IVec S150000 32) : IVec S150000x1 32 :=
  broadcastInDim S150000x1 ![0] bcast_S150000_S150000x1_0 d

/-- The first layer's aggregate: the gathered rows added up by destination, from zero. -/
def kAgg (x : FVec F S100000x512 .f32) (s d : IVec S150000 32) : FVec F S100000x512 .f32 :=
  Host.scatterAdd scatter_S100000x512_S150000x1_S150000x512_1_0_0_1
    (broadcastInDim S100000x512 ![] bcast_S_S100000x512 (constant S_ .f32 0x00000000#32)) (kDstB d) (kTakeRows x s)

/-- The second layer after the fused region: the projected column gathered and added up by destination, the node's
    own entry added, then bias, positive part, the 1 × 1 weight and bias. -/
def kH2 (p : FVec F S100000x1 .f32) (s d : IVec S150000 32) (b2a : FVec F S1 .f32) (W2b : FVec F S1x1 .f32)
    (b2b : FVec F S1 .f32) : FVec F S100000x1 .f32 :=
  addf
    (mulf
      (maximumf
        (addf
          (addf
            (Host.scatterAdd scatter_S100000x1_S150000x1_S150000x1_1_0_0_1
              (broadcastInDim S100000x1 ![] bcast_S_S100000x1 (constant S_ .f32 0x00000000#32)) (kDstB d) (kTakeCol p s))
            p)
          (broadcastInDim S100000x1 ![] bcast_S_S100000x1 (shapeCast S_ b2a shapeCasts_S1_S_)))
        (broadcastInDim S100000x1 ![] bcast_S_S100000x1 (constant S_ .f32 0x00000000#32)))
      (broadcastInDim S100000x1 ![] bcast_S_S100000x1 (shapeCast S_ W2b shapeCasts_S1x1_S_)))
    (broadcastInDim S100000x1 ![] bcast_S_S100000x1 (shapeCast S_ b2b shapeCasts_S1_S_))

/-- The mean pool: per graph, the sum of its nodes' entries over its node count (at least one). -/
def kOut (h2 : FVec F S100000x1 .f32) (batch : IVec S100000 32) : FVec F S64x1 .f32 :=
  Host.divf
    (Host.scatterAdd scatter_S64x1_S100000x1_S100000x1_1_0_0_1
      (broadcastInDim S64x1 ![] bcast_S_S64x1 (constant S_ .f32 0x00000000#32))
      (broadcastInDim S100000x1 ![0] bcast_S100000_S100000x1_0 batch) h2)
    (maximumf
      (Host.scatterAdd scatter_S64x1_S100000x1_S100000x1_1_0_0_1
        (broadcastInDim S64x1 ![] bcast_S_S64x1 (constant S_ .f32 0x00000000#32))
        (broadcastInDim S100000x1 ![0] bcast_S100000_S100000x1_0 batch)
        (broadcastInDim S100000x1 ![] bcast_S_S100000x1 (constant S_ .f32 0x3F800000#32)))
      (broadcastInDim S64x1 ![] bcast_S_S64x1 (constant S_ .f32 0x3F800000#32)))

/-! ## Reading the layout operations at an index -/

/-- A column made from a vector holds the vector's entry in each row. -/
theorem col_apply {α : Type} (v : S150000.Idx → α) (e : Fin 150000) (k : Fin 1) :
    broadcastInDim S150000x1 ![0] bcast_S150000_S150000x1_0 v (ix2 e k) = v (ix1 e) :=
  broadcastInDim_apply _ _ v (ix2 e k) (ix1 e) (fun a => by
    match a with
    | ⟨0, _⟩ => exact (if_neg (show ¬ (150000 : ℕ) = 1 by decide)).symm)

/-- A vector spread over 512 columns holds the vector's entry in each row. -/
theorem rows_apply {α : Type} (v : S150000.Idx → α) (e : Fin 150000) (k : Fin 512) :
    broadcastInDim S150000x512 ![0] bcast_S150000_S150000x512_0 v (ix2 e k) = v (ix1 e) :=
  broadcastInDim_apply _ _ v (ix2 e k) (ix1 e) (fun a => by
    match a with
    | ⟨0, _⟩ => exact (if_neg (show ¬ (150000 : ℕ) = 1 by decide)).symm)

/-- A one-element array recast to a scalar holds that element. -/
theorem scalar_of_one {s : Shape} {α : Type} (hs : s.numel = 1) (x : s.Idx → α) (h : s.ShapeCasts S_) (k : s.Idx) :
    shapeCast S_ x h ix0 = x k :=
  shapeCast_apply x h ix0 k (by
    have h1 := (s.rowMajor k).isLt
    have h2 := (S_.rowMajor ix0).isLt
    have h3 : S_.numel = 1 := rfl
    omega)

/-! ## Where every wrapped start word is a node -/

section InRange

variable (s : IVec S150000 32)

theorem kIdxB_apply (e : Fin 150000) (k : Fin 1) : kIdxB s (ix2 e k) = kWrap s (ix1 e) :=
  col_apply (kWrap s) e k

/-- A left fold by `and` from 1 over words that are all 1 is 1. -/
theorem foldl_andi_ones {ι : Type} (f : ι → BitVec 1) (hf : ∀ i, f i = 1#1) :
    ∀ (l : List ι) (init : BitVec 1), init = 1#1 → l.foldl (fun r i => IntOp.andi r (f i)) init = 1#1
  | [], _, h => h
  | a :: l, init, h => by
    rw [List.foldl_cons]
    exact foldl_andi_ones f hf l _ (IntOp.andi_eq_one.2 ⟨h, hf a⟩)

variable (hmask : ∀ e : S150000.Idx, IntOp.cmpi .sge (kWrap s e) 0#32 = 1#1 ∧ IntOp.cmpi .sle (kWrap s e) 99999#32 = 1#1)
include hmask

/-- The range test passes on every edge. -/
theorem kMask_one (e : S150000.Idx) : kMask s e = 1#1 := by
  unfold kMask
  dsimp only
  rw [Host.reduce_eq_foldl]
  refine foldl_andi_ones _ (fun i => ?_) _ _ rfl
  obtain ⟨a, b, rfl⟩ : ∃ (a : Fin 150000) (b : Fin 1), i = ix2 a b := ⟨i 0, i 1, eq_ix2 i⟩
  show IntOp.andi (IntOp.cmpi .sge (kIdxB s (ix2 a b)) 0#32) (IntOp.cmpi .sle (kIdxB s (ix2 a b)) 99999#32) = 1#1
  rw [kIdxB_apply]
  exact IntOp.andi_eq_one.2 (hmask (ix1 a))

/-- The 512-column gather, unmasked: the operand's row at the clamped wrapped start word. -/
theorem kTakeRows_apply (x : FVec Ideal S100000x512 .f32) (e : Fin 150000) (k : Fin 512) :
    kTakeRows (F := Ideal) x s (ix2 e k) = x (ix2 (rowOf (kIdxB s) e) k) := by
  unfold kTakeRows
  rw [select_apply, rows_apply, kMask_one s hmask]
  exact gather_row_apply gather_S100000x512_S150000x1_S150000x512_1_0_n_n_0_1_1512_wf x (kIdxB s) e k

/-- The one-column gather, unmasked. -/
theorem kTakeCol_apply (p : FVec Ideal S100000x1 .f32) (e : Fin 150000) :
    kTakeCol (F := Ideal) p s (ix2 e 0) = p (ix2 (rowOf (kIdxB s) e) 0) := by
  unfold kTakeCol
  rw [select_apply, col_apply, kMask_one s hmask]
  exact gather_col_apply gather_S100000x1_S150000x1_S150000x1_1_0_n_n_0_1_11_wf p (kIdxB s) e 0

/-- The first layer's aggregate at a node and a column: the sum, over the edges into the node, of the source rows'
    entries in that column. -/
theorem kAgg_apply (x : FVec Ideal S100000x512 .f32) (d : IVec S150000 32) (n : Fin 100000) (i : Fin 512) :
    kAgg (F := Ideal) x s d (ix2 n i) = gathered (kIdxB s) (kDstB d) (fun r => x (ix2 r i)) n := by
  unfold kAgg
  refine (scatterAdd_row_apply scatter_S100000x512_S150000x1_S150000x512_1_0_0_1_wf _ (kDstB d)
    (kTakeRows (F := Ideal) x s) n i).trans ?_
  rw [broadcastInDim_scalar_apply, constant_apply, Ideal.ofBits_zero_f32, zero_add]
  unfold gathered
  exact Finset.sum_congr rfl (fun e _ => kTakeRows_apply s hmask x e i)

/-- The second layer's entry at a node: the projected column aggregated over the edges into the node, plus the
    node's own entry, through bias, positive part, weight and bias. -/
theorem kH2_apply (p : FVec Ideal S100000x1 .f32) (d : IVec S150000 32) (b2a : FVec Ideal S1 .f32)
    (W2b : FVec Ideal S1x1 .f32) (b2b : FVec Ideal S1 .f32) (n : Fin 100000) :
    kH2 (F := Ideal) p s d b2a W2b b2b (ix2 n 0)
      = out2 (gathered (kIdxB s) (kDstB d) (fun r => p (ix2 r 0)) n + p (ix2 n 0)) (b2a (ix1 0)) (W2b (ix2 0 0))
          (b2b (ix1 0)) := by
  have hsc : Host.scatterAdd (F := Ideal) scatter_S100000x1_S150000x1_S150000x1_1_0_0_1
      (broadcastInDim S100000x1 ![] bcast_S_S100000x1 (constant (F := Ideal) S_ .f32 0x00000000#32)) (kDstB d)
      (kTakeCol (F := Ideal) p s) (ix2 n 0) = gathered (kIdxB s) (kDstB d) (fun r => p (ix2 r 0)) n := by
    refine (scatterAdd_col_apply scatter_S100000x1_S150000x1_S150000x1_1_0_0_1_wf _ (kDstB d)
      (kTakeCol (F := Ideal) p s) n 0).trans ?_
    rw [broadcastInDim_scalar_apply, constant_apply, Ideal.ofBits_zero_f32, zero_add]
    unfold gathered
    exact Finset.sum_congr rfl (fun e _ => kTakeCol_apply s hmask p e)
  unfold kH2 out2
  rw [addf_apply, mulf_apply, maximumf_apply, addf_apply, addf_apply, hsc]
  rw [broadcastInDim_scalar_apply, broadcastInDim_scalar_apply, broadcastInDim_scalar_apply,
    broadcastInDim_scalar_apply, constant_apply, Ideal.ofBits_zero_f32,
    scalar_of_one rfl b2a shapeCasts_S1_S_ (ix1 0), scalar_of_one rfl W2b shapeCasts_S1x1_S_ (ix2 0 0),
    scalar_of_one rfl b2b shapeCasts_S1_S_ (ix1 0)]

end InRange

end Cert.Gin

end
-- ==== Proof.RefValue.lean ====
/-
  The reference program's second-layer output read at a node, as the specification's row functions: operation by
  operation, each value at an index given by explicit coordinates. Sums are over the extended reals; only
  commutative-monoid facts are used (a zero summand dropped, a one-term sum), never distributivity or cancellation.
-/
import proofs.«413825_j74285754351849_2_alg».proof.Proof.Gen.ReferenceIdeal.Read
import proofs.«413825_j74285754351849_2_alg».proof.Proof.Spec
import proofs.«413825_j74285754351849_2_alg».proof.Proof.IndexOps
import Idealize.ShloMosaic.PureOps.Ideal.Laws
import Idealize.ShloMosaic.Lib.ValueIdx
import Mathlib.Algebra.BigOperators.Fin

noncomputable section

open scoped BigOperators

namespace Cert.Gin

open Idealize.ShloMosaic Idealize.ShloMosaic.ValueIdx Cert.ReferenceIdeal Cert.ReferenceIdeal.Read

/-! ## The generated coordinate functions at an index given by its coordinates -/

theorem ref_lidx15 (n : Fin 100000) (j k : Fin 512) : lidx_main_v15 (ix2 n j) k = ix2 n k := by
  funext a; match a with | ⟨0, _⟩ => rfl | ⟨1, _⟩ => rfl
theorem ref_ridx15 (n : Fin 100000) (j k : Fin 512) : ridx_main_v15 (ix2 n j) k = ix2 k j := by
  funext a; match a with | ⟨0, _⟩ => rfl | ⟨1, _⟩ => rfl
theorem ref_lidx21 (n : Fin 100000) (j k : Fin 512) : lidx_main_v21 (ix2 n j) k = ix2 n k := by
  funext a; match a with | ⟨0, _⟩ => rfl | ⟨1, _⟩ => rfl
theorem ref_ridx21 (n : Fin 100000) (j k : Fin 512) : ridx_main_v21 (ix2 n j) k = ix2 k j := by
  funext a; match a with | ⟨0, _⟩ => rfl | ⟨1, _⟩ => rfl
theorem ref_lidx38 (n : Fin 100000) (j : Fin 1) (k : Fin 512) : lidx_main_v38 (ix2 n j) k = ix2 n k := by
  funext a; match a with | ⟨0, _⟩ => rfl | ⟨1, _⟩ => rfl
theorem ref_ridx38 (n : Fin 100000) (j : Fin 1) (k : Fin 512) : ridx_main_v38 (ix2 n j) k = ix2 k j := by
  funext a; match a with | ⟨0, _⟩ => rfl | ⟨1, _⟩ => rfl
theorem ref_lidx44 (n : Fin 100000) (j k : Fin 1) : lidx_main_v44 (ix2 n j) k = ix2 n k := by
  funext a; match a with | ⟨0, _⟩ => rfl | ⟨1, _⟩ => rfl
theorem ref_ridx44 (n : Fin 100000) (j k : Fin 1) : ridx_main_v44 (ix2 n j) k = ix2 k j := by
  funext a; match a with | ⟨0, _⟩ => rfl | ⟨1, _⟩ => rfl
/-- A bias row broadcast over the nodes reads the bias at the column. -/
theorem ref_idxBias17 (n : Fin 100000) (j : Fin 512) : idx_main_v16 (idx_main_v17 (ix2 n j)) = ix1 j := by
  funext a; match a with | ⟨0, _⟩ => rfl
theorem ref_idxBias23 (n : Fin 100000) (j : Fin 512) : idx_main_v22 (idx_main_v23 (ix2 n j)) = ix1 j := by
  funext a; match a with | ⟨0, _⟩ => rfl
theorem ref_idxBias40 (n : Fin 100000) (j : Fin 1) : idx_main_v39 (idx_main_v40 (ix2 n j)) = ix1 0 := by
  funext a; match a with | ⟨0, _⟩ => rfl
theorem ref_idxBias46 (n : Fin 100000) (j : Fin 1) : idx_main_v45 (idx_main_v46 (ix2 n j)) = ix1 0 := by
  funext a; match a with | ⟨0, _⟩ => rfl

section Stages
variable (x0 : (⟨S100000x512, .f32⟩ : BufTy).Contents (Elt Ideal)) (x1 : (⟨S2x150000, .i32⟩ : BufTy).Contents (Elt Ideal))
  (x3 : (⟨S512x512, .f32⟩ : BufTy).Contents (Elt Ideal)) (x4 : (⟨S512, .f32⟩ : BufTy).Contents (Elt Ideal))
  (x5 : (⟨S512x512, .f32⟩ : BufTy).Contents (Elt Ideal)) (x6 : (⟨S512, .f32⟩ : BufTy).Contents (Elt Ideal))
  (x7 : (⟨S512x1, .f32⟩ : BufTy).Contents (Elt Ideal)) (x8 : (⟨S1, .f32⟩ : BufTy).Contents (Elt Ideal))
  (x9 : (⟨S1x1, .f32⟩ : BufTy).Contents (Elt Ideal)) (x10 : (⟨S1, .f32⟩ : BufTy).Contents (Elt Ideal))

/-! ## The reference's arguments as functions of coordinates -/

/-- The node features, row by row. -/
abbrev refX : Fin 100000 → Fin 512 → EReal := fun r i => x0 (ix2 r i)
/-- The source words of the edges, as the first gather reads them. -/
abbrev refSrc : IVec SEx1 32 := val_main_v9 (F := Ideal) x1
/-- The destination words of the edges, as the first scatter reads them. -/
abbrev refDst : IVec SEx1 32 := val_main_v12 (F := Ideal) x1

/-- The second gather's start words and the second scatter's index words are the first's. -/
theorem ref_v32_eq : val_main_v32 (F := Ideal) x1 = val_main_v9 (F := Ideal) x1 := rfl
theorem ref_v35_eq : val_main_v35 (F := Ideal) x1 = val_main_v12 (F := Ideal) x1 := rfl

/-! ## The first layer, stage by stage -/

/-- The first gather: edge `e`'s message is its source row of `x`. -/
theorem ref_v10_apply (e : Fin 150000) (i : Fin 512) :
    val_main_v10 (F := Ideal) x0 x1 (ix2 e i) = x0 (ix2 (rowOf (refSrc x1) e) i) :=
  gather_row_apply Facts₀.gather_S100000x512_S150000x1_S150000x512_1_0_n_n_0_1_1512_wf x0 (val_main_v9 (F := Ideal) x1) e i

/-- The first aggregation: into the zero array, the sum of the messages of the edges into node `n`. -/
theorem ref_v13_apply (n : Fin 100000) (i : Fin 512) :
    val_main_v13 (F := Ideal) x0 x1 (ix2 n i) = gathered (refSrc x1) (refDst x1) (fun s => x0 (ix2 s i)) n := by
  refine (scatterAdd_row_apply Facts₀.scatter_S100000x512_S150000x1_S150000x512_1_0_0_1_wf (val_main_v11 (F := Ideal))
    (val_main_v12 (F := Ideal) x1) (val_main_v10 (F := Ideal) x0 x1) n i).trans ?_
  rw [val_main_v11_apply, val_main_cst_apply]
  show Ideal.ofBits .f32 0x00000000#32 + _ = _
  rw [Ideal.ofBits_zero_f32, zero_add]
  exact Finset.sum_congr rfl fun e _ => ref_v10_apply x0 x1 e i

/-- The first layer's input row: the aggregate plus the node's own row. -/
theorem ref_v14_apply (n : Fin 100000) (i : Fin 512) :
    val_main_v14 (F := Ideal) x0 x1 (ix2 n i) = zRow (refX x0) (refSrc x1) (refDst x1) n i := by
  rw [val_main_v14_apply, ref_v13_apply]
  rfl

/-- The first affine map's product: the input row against a column of the weight. -/
theorem ref_v15_apply (n : Fin 100000) (j : Fin 512) :
    val_main_v15 (F := Ideal) x0 x1 x3 (ix2 n j)
      = ∑ i : Fin 512, zRow (refX x0) (refSrc x1) (refDst x1) n i * x3 (ix2 i j) := by
  rw [val_main_v15_apply]
  refine Finset.sum_congr rfl fun i _ => ?_
  rw [ref_lidx15, ref_ridx15, ref_v14_apply]

/-- … plus the bias … -/
theorem ref_v18_apply (n : Fin 100000) (j : Fin 512) :
    val_main_v18 (F := Ideal) x0 x1 x3 x4 (ix2 n j)
      = (∑ i : Fin 512, zRow (refX x0) (refSrc x1) (refDst x1) n i * x3 (ix2 i j)) + x4 (ix1 j) := by
  rw [val_main_v18_apply, ref_v15_apply, val_main_v17_apply, val_main_v16_apply, ref_idxBias17]
  rfl

/-- … and its positive part. -/
theorem ref_v20_apply (n : Fin 100000) (j : Fin 512) :
    val_main_v20 (F := Ideal) x0 x1 x3 x4 (ix2 n j)
      = max ((∑ i : Fin 512, zRow (refX x0) (refSrc x1) (refDst x1) n i * x3 (ix2 i j)) + x4 (ix1 j)) 0 := by
  rw [val_main_v20_apply, ref_v18_apply, val_main_v19_apply, val_main_cst_1_apply]
  show max _ (Ideal.ofBits .f32 0x00000000#32) = _
  rw [Ideal.ofBits_zero_f32]

/-- The second affine map's product. -/
theorem ref_v21_apply (n : Fin 100000) (k : Fin 512) :
    val_main_v21 (F := Ideal) x0 x1 x3 x4 x5 (ix2 n k)
      = ∑ j : Fin 512, max ((∑ i : Fin 512, zRow (refX x0) (refSrc x1) (refDst x1) n i * x3 (ix2 i j)) + x4 (ix1 j)) 0 * x5 (ix2 j k) := by
  rw [val_main_v21_apply]
  refine Finset.sum_congr rfl fun j _ => ?_
  rw [ref_lidx21, ref_ridx21, ref_v20_apply]

/-- … plus the bias … -/
theorem ref_v24_apply (n : Fin 100000) (k : Fin 512) :
    val_main_v24 (F := Ideal) x0 x1 x3 x4 x5 x6 (ix2 n k)
      = (∑ j : Fin 512, max ((∑ i : Fin 512, zRow (refX x0) (refSrc x1) (refDst x1) n i * x3 (ix2 i j)) + x4 (ix1 j)) 0 * x5 (ix2 j k))
          + x6 (ix1 k) := by
  rw [val_main_v24_apply, ref_v21_apply, val_main_v23_apply, val_main_v22_apply, ref_idxBias23]
  rfl

/-- The first layer's output row, after the activation between the layers. -/
theorem ref_v26_apply (n : Fin 100000) (k : Fin 512) :
    val_main_v26 (F := Ideal) x0 x1 x3 x4 x5 x6 (ix2 n k)
      = hRow (refX x0) (fun i j => x3 (ix2 i j)) (fun j => x4 (ix1 j)) (fun j k => x5 (ix2 j k)) (fun k => x6 (ix1 k))
          (refSrc x1) (refDst x1) n k := by
  rw [val_main_v26_apply, ref_v24_apply, val_main_v25_apply, val_main_cst_2_apply]
  show max _ (Ideal.ofBits .f32 0x00000000#32) = _
  rw [Ideal.ofBits_zero_f32]
  rfl

/-! ## The second layer: aggregate the 512-wide rows, then project -/

/-- The first layer's output row at node `r`, as the specification names it. -/
abbrev refH1 (r : Fin 100000) : Fin 512 → EReal :=
  hRow (refX x0) (fun i j => x3 (ix2 i j)) (fun j => x4 (ix1 j)) (fun j k => x5 (ix2 j k)) (fun k => x6 (ix1 k))
    (refSrc x1) (refDst x1) r

/-- The second gather: edge `e`'s message is its source row of the first layer's output. -/
theorem ref_v33_apply (e : Fin 150000) (k : Fin 512) :
    val_main_v33 (F := Ideal) x0 x1 x3 x4 x5 x6 (ix2 e k) = refH1 x0 x1 x3 x4 x5 x6 (rowOf (refSrc x1) e) k := by
  refine (gather_row_apply Facts₀.gather_S100000x512_S150000x1_S150000x512_1_0_n_n_0_1_1512_wf
    (val_main_v26 (F := Ideal) x0 x1 x3 x4 x5 x6) (val_main_v32 (F := Ideal) x1) e k).trans ?_
  rw [ref_v32_eq]
  exact ref_v26_apply x0 x1 x3 x4 x5 x6 (rowOf (refSrc x1) e) k

/-- The second aggregation: the sum of those messages over the edges into node `n`. -/
theorem ref_v36_apply (n : Fin 100000) (k : Fin 512) :
    val_main_v36 (F := Ideal) x0 x1 x3 x4 x5 x6 (ix2 n k)
      = gathered (refSrc x1) (refDst x1) (fun r => refH1 x0 x1 x3 x4 x5 x6 r k) n := by
  refine (scatterAdd_row_apply Facts₀.scatter_S100000x512_S150000x1_S150000x512_1_0_0_1_wf (val_main_v34 (F := Ideal))
    (val_main_v35 (F := Ideal) x1) (val_main_v33 (F := Ideal) x0 x1 x3 x4 x5 x6) n k).trans ?_
  rw [val_main_v34_apply, val_main_cst_5_apply, ref_v35_eq]
  show Ideal.ofBits .f32 0x00000000#32 + _ = _
  rw [Ideal.ofBits_zero_f32, zero_add]
  exact Finset.sum_congr rfl fun e _ => ref_v33_apply x0 x1 x3 x4 x5 x6 e k

/-- The second layer's input row: the aggregate plus the node's own row. -/
theorem ref_v37_apply (n : Fin 100000) (k : Fin 512) :
    val_main_v37 (F := Ideal) x0 x1 x3 x4 x5 x6 (ix2 n k)
      = gathered (refSrc x1) (refDst x1) (fun r => refH1 x0 x1 x3 x4 x5 x6 r k) n + refH1 x0 x1 x3 x4 x5 x6 n k := by
  rw [val_main_v37_apply, ref_v36_apply, ref_v26_apply]
  rfl

/-- The second layer's first affine map has one output column: the input row against that column. -/
theorem ref_v38_apply (n : Fin 100000) :
    val_main_v38 (F := Ideal) x0 x1 x3 x4 x5 x6 x7 (ix2 n 0)
      = qRef (refX x0) (fun i j => x3 (ix2 i j)) (fun j => x4 (ix1 j)) (fun j k => x5 (ix2 j k)) (fun k => x6 (ix1 k))
          (refSrc x1) (refDst x1) (fun k => x7 (ix2 k 0)) n := by
  rw [val_main_v38_apply]
  unfold qRef proj
  refine Finset.sum_congr rfl fun k _ => ?_
  rw [ref_lidx38, ref_ridx38, ref_v37_apply]

/-- … plus the bias … -/
theorem ref_v41_apply (n : Fin 100000) :
    val_main_v41 (F := Ideal) x0 x1 x3 x4 x5 x6 x7 x8 (ix2 n 0)
      = qRef (refX x0) (fun i j => x3 (ix2 i j)) (fun j => x4 (ix1 j)) (fun j k => x5 (ix2 j k)) (fun k => x6 (ix1 k))
          (refSrc x1) (refDst x1) (fun k => x7 (ix2 k 0)) n + x8 (ix1 0) := by
  rw [val_main_v41_apply, ref_v38_apply, val_main_v40_apply, val_main_v39_apply, ref_idxBias40]
  rfl

/-- … and its positive part. -/
theorem ref_v43_apply (n : Fin 100000) :
    val_main_v43 (F := Ideal) x0 x1 x3 x4 x5 x6 x7 x8 (ix2 n 0)
      = max (qRef (refX x0) (fun i j => x3 (ix2 i j)) (fun j => x4 (ix1 j)) (fun j k => x5 (ix2 j k)) (fun k => x6 (ix1 k))
          (refSrc x1) (refDst x1) (fun k => x7 (ix2 k 0)) n + x8 (ix1 0)) 0 := by
  rw [val_main_v43_apply, ref_v41_apply, val_main_v42_apply, val_main_cst_6_apply]
  show max _ (Ideal.ofBits .f32 0x00000000#32) = _
  rw [Ideal.ofBits_zero_f32]

/-- The 1 × 1 weight: a sum of one product. -/
theorem ref_v44_apply (n : Fin 100000) :
    val_main_v44 (F := Ideal) x0 x1 x3 x4 x5 x6 x7 x8 x9 (ix2 n 0)
      = max (qRef (refX x0) (fun i j => x3 (ix2 i j)) (fun j => x4 (ix1 j)) (fun j k => x5 (ix2 j k)) (fun k => x6 (ix1 k))
          (refSrc x1) (refDst x1) (fun k => x7 (ix2 k 0)) n + x8 (ix1 0)) 0 * x9 (ix2 0 0) := by
  rw [val_main_v44_apply, Fin.sum_univ_one, ref_lidx44, ref_ridx44, ref_v43_apply]

end Stages

/-- THE REFERENCE'S SECOND-LAYER OUTPUT at node `n`: the specification's `out2` of the aggregate-then-project
    pre-activation `qRef`. -/
theorem ref_h2_apply (x0 : (⟨S100000x512, .f32⟩ : BufTy).Contents (Elt Ideal)) (x1 : (⟨S2x150000, .i32⟩ : BufTy).Contents (Elt Ideal))
    (x3 : (⟨S512x512, .f32⟩ : BufTy).Contents (Elt Ideal)) (x4 : (⟨S512, .f32⟩ : BufTy).Contents (Elt Ideal))
    (x5 : (⟨S512x512, .f32⟩ : BufTy).Contents (Elt Ideal)) (x6 : (⟨S512, .f32⟩ : BufTy).Contents (Elt Ideal))
    (x7 : (⟨S512x1, .f32⟩ : BufTy).Contents (Elt Ideal)) (x8 : (⟨S1, .f32⟩ : BufTy).Contents (Elt Ideal))
    (x9 : (⟨S1x1, .f32⟩ : BufTy).Contents (Elt Ideal)) (x10 : (⟨S1, .f32⟩ : BufTy).Contents (Elt Ideal)) (n : Fin 100000) :
    Cert.ReferenceIdeal.Read.val_main_v47 (F := Ideal) x0 x1 x3 x4 x5 x6 x7 x8 x9 x10 (ix2 n 0)
      = out2 (qRef (fun r i => x0 (ix2 r i)) (fun i j => x3 (ix2 i j)) (fun j => x4 (ix1 j)) (fun j k => x5 (ix2 j k)) (fun k => x6 (ix1 k))
                (Cert.ReferenceIdeal.Read.val_main_v9 x1) (Cert.ReferenceIdeal.Read.val_main_v12 x1) (fun k => x7 (ix2 k 0)) n)
             (x8 (ix1 0)) (x9 (ix2 0 0)) (x10 (ix1 0)) := by
  rw [val_main_v47_apply, ref_v44_apply, val_main_v46_apply, val_main_v45_apply, ref_idxBias46]
  rfl

end Cert.Gin

end
-- ==== Proof.Law.lean ====
/-
  The algebra over the extended reals that joins the two programs.

  On the extended reals distributivity, and moving a factor across a sum, fail at the infinities:
  `(1 + (-1)) * ⊤ = 0` while `1 * ⊤ + (-1) * ⊤ = ⊤ + ⊥ = ⊥`.  Every law
  below is therefore stated for REAL-VALUED data (each entry is the image of a real number) and is proved by pushing
  the coercion `ℝ → EReal` outwards, through products, sums, finite sums and maxima, until both sides are the
  coercion of a real expression; the identity is then an identity of finite sums of reals.

  * Closure: zero, sums, products, maxima and finite sums of real values are real; so are a gathered sum of real
    rows (`gathered_real`) and a node row sent through the first layer (`hidRow_real`).
  * THE LAW (`proj_gathered`): projecting the aggregated rows is aggregating the projected rows,
      `∑ k, (∑ e ∈ S, h (r e) k + h n k) * w k = ∑ e ∈ S, ∑ k, h (r e) k * w k + ∑ k, h n k * w k`.
-/
import proofs.«413825_j74285754351849_2_alg».proof.Proof.Spec
import Mathlib.Data.EReal.Basic
import Mathlib.Data.EReal.Operations
import Mathlib.Algebra.BigOperators.Group.Finset.Basic
import Mathlib.Algebra.BigOperators.Group.Finset.Sigma
import Mathlib.Algebra.BigOperators.Ring.Finset

noncomputable section

namespace Cert.Gin

open Idealize.ShloMosaic Idealize.ShloMosaic.ValueIdx

/-! ### The coercion commutes with finite sums and with maxima -/

/-- The coercion of a finite sum of reals is the finite sum of the coercions. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The coercion is monotone, so it commutes with the larger of two reals. -/
theorem coe_max (x y : ℝ) : ((max x y : ℝ) : EReal) = max (x : EReal) (y : EReal) :=
  EReal.coe_strictMono.monotone.map_max

/-! ### Closure of the real values -/

/-- Zero is real. -/
theorem zero_real : ∃ x : ℝ, (0 : EReal) = (x : EReal) := ⟨0, EReal.coe_zero.symm⟩

/-- A real plus a real is real. -/
theorem add_real {a b : EReal} (ha : ∃ x : ℝ, a = (x : EReal)) (hb : ∃ x : ℝ, b = (x : EReal)) :
    ∃ x : ℝ, a + b = (x : EReal) := by
  obtain ⟨x, rfl⟩ := ha
  obtain ⟨y, rfl⟩ := hb
  exact ⟨x + y, (EReal.coe_add x y).symm⟩

/-- A real times a real is real. -/
theorem mul_real {a b : EReal} (ha : ∃ x : ℝ, a = (x : EReal)) (hb : ∃ x : ℝ, b = (x : EReal)) :
    ∃ x : ℝ, a * b = (x : EReal) := by
  obtain ⟨x, rfl⟩ := ha
  obtain ⟨y, rfl⟩ := hb
  exact ⟨x * y, (EReal.coe_mul x y).symm⟩

/-- The larger of two reals is real. -/
theorem max_real {a b : EReal} (ha : ∃ x : ℝ, a = (x : EReal)) (hb : ∃ x : ℝ, b = (x : EReal)) :
    ∃ x : ℝ, max a b = (x : EReal) := by
  obtain ⟨x, rfl⟩ := ha
  obtain ⟨y, rfl⟩ := hb
  exact ⟨max x y, (coe_max x y).symm⟩

/-- A finite sum of reals is real. -/
theorem sum_real {ι : Type} (s : Finset ι) (f : ι → EReal) (hf : ∀ i, ∃ x : ℝ, f i = (x : EReal)) :
    ∃ x : ℝ, ∑ i ∈ s, f i = (x : EReal) := by
  choose g hg using hf
  refine ⟨∑ i ∈ s, g i, ?_⟩
  rw [coe_sum]
  exact Finset.sum_congr rfl (fun i _ => hg i)

/-- The gathered sum of a real-valued column is real. -/
theorem gathered_real (src dst : IVec SEx1 32) (f : Fin 100000 → EReal)
    (hf : ∀ r, ∃ x : ℝ, f r = (x : EReal)) (n : Fin 100000) :
    ∃ x : ℝ, gathered src dst f n = (x : EReal) := by
  unfold gathered
  exact sum_real _ _ (fun e => hf (rowOf src e))

/-- A real row through the first layer, with real weights and offsets, is a real row. -/
theorem hidRow_real (z : Fin 512 → EReal) (A : Fin 512 → Fin 512 → EReal) (a : Fin 512 → EReal)
    (B : Fin 512 → Fin 512 → EReal) (b : Fin 512 → EReal)
    (hz : ∀ i, ∃ x : ℝ, z i = (x : EReal)) (hA : ∀ i j, ∃ x : ℝ, A i j = (x : EReal))
    (ha : ∀ j, ∃ x : ℝ, a j = (x : EReal)) (hB : ∀ j k, ∃ x : ℝ, B j k = (x : EReal))
    (hb : ∀ k, ∃ x : ℝ, b k = (x : EReal)) (k : Fin 512) :
    ∃ x : ℝ, hidRow z A a B b k = (x : EReal) := by
  unfold hidRow
  refine max_real (add_real (sum_real _ _ (fun j => mul_real (max_real (add_real
    (sum_real _ _ (fun i => mul_real (hz i) (hA i j))) (ha j)) zero_real) (hB j k))) (hb k)) zero_real

/-! ### The law -/

/-- The law over the reals: a weighted sum of (a finite sum of rows plus one more row) is the finite sum of the
    weighted sums plus the weighted sum of that row.  Distribute the weight over the bracket, split the sum over
    the columns, distribute the weight over the inner sum, and exchange the two sums. -/
theorem proj_gathered_real {ι : Type} (S : Finset ι) (r : ι → Fin 100000) (H : Fin 100000 → Fin 512 → ℝ)
    (W : Fin 512 → ℝ) (n : Fin 100000) :
    ∑ k, ((∑ e ∈ S, H (r e) k) + H n k) * W k = (∑ e ∈ S, ∑ k, H (r e) k * W k) + ∑ k, H n k * W k := by
  simp only [add_mul, Finset.sum_add_distrib, Finset.sum_mul]
  rw [Finset.sum_comm]

/-- THE LAW: projecting the aggregated rows is aggregating the projected rows. -/
theorem proj_gathered (src dst : IVec SEx1 32) (h : Fin 100000 → Fin 512 → EReal) (w : Fin 512 → EReal)
    (hh : ∀ r k, ∃ x : ℝ, h r k = (x : EReal)) (hw : ∀ k, ∃ x : ℝ, w k = (x : EReal)) (n : Fin 100000) :
    proj (fun k => gathered src dst (fun r => h r k) n + h n k) w
      = gathered src dst (fun r => proj (h r) w) n + proj (h n) w := by
  choose H hH using hh
  choose W hW using hw
  obtain rfl : h = fun r k => (H r k : EReal) := funext (fun r => funext (fun k => hH r k))
  obtain rfl : w = fun k => (W k : EReal) := funext hW
  unfold proj gathered
  simp only [← EReal.coe_mul, ← coe_sum, ← EReal.coe_add]
  exact congrArg Real.toEReal (proj_gathered_real _ (rowOf src) H W n)

/-! ### The first layer's rows are real, and the two orders of the second layer agree -/

/-- The first layer's input row at a node, a gathered sum of real rows plus the node's own real row, is real. -/
theorem zRow_real (x : Fin 100000 → Fin 512 → EReal) (src dst : IVec SEx1 32)
    (hx : ∀ r i, ∃ y : ℝ, x r i = (y : EReal)) (r : Fin 100000) (i : Fin 512) :
    ∃ y : ℝ, zRow x src dst r i = (y : EReal) := by
  unfold zRow
  exact add_real (gathered_real src dst (fun s => x s i) (fun s => hx s i) r) (hx r i)

/-- The first layer's output row at a node is real when the features, weights and offsets are. -/
theorem hRow_real (x : Fin 100000 → Fin 512 → EReal) (A : Fin 512 → Fin 512 → EReal) (a : Fin 512 → EReal)
    (B : Fin 512 → Fin 512 → EReal) (b : Fin 512 → EReal) (src dst : IVec SEx1 32)
    (hx : ∀ r i, ∃ y : ℝ, x r i = (y : EReal)) (hA : ∀ i j, ∃ y : ℝ, A i j = (y : EReal))
    (ha : ∀ j, ∃ y : ℝ, a j = (y : EReal)) (hB : ∀ j k, ∃ y : ℝ, B j k = (y : EReal))
    (hb : ∀ k, ∃ y : ℝ, b k = (y : EReal)) (r : Fin 100000) (k : Fin 512) :
    ∃ y : ℝ, hRow x A a B b src dst r k = (y : EReal) := by
  unfold hRow
  exact hidRow_real _ A a B b (zRow_real x src dst hx r) hA ha hB hb k

/-- Aggregating the first layer's rows and then projecting equals projecting each row and then aggregating:
    the law at the (real) rows of the first layer. -/
theorem qRef_eq_qKer (x : Fin 100000 → Fin 512 → EReal) (A : Fin 512 → Fin 512 → EReal) (a : Fin 512 → EReal)
    (B : Fin 512 → Fin 512 → EReal) (b : Fin 512 → EReal) (src dst : IVec SEx1 32) (w : Fin 512 → EReal)
    (hx : ∀ r i, ∃ y : ℝ, x r i = (y : EReal)) (hA : ∀ i j, ∃ y : ℝ, A i j = (y : EReal))
    (ha : ∀ j, ∃ y : ℝ, a j = (y : EReal)) (hB : ∀ j k, ∃ y : ℝ, B j k = (y : EReal))
    (hb : ∀ k, ∃ y : ℝ, b k = (y : EReal)) (hw : ∀ k, ∃ y : ℝ, w k = (y : EReal)) (n : Fin 100000) :
    qRef x A a B b src dst w n = qKer x A a B b src dst w n := by
  unfold qRef qKer
  exact proj_gathered src dst (hRow x A a B b src dst) w
    (fun r k => hRow_real x A a B b src dst hx hA ha hB hb r k) hw n

end Cert.Gin

end
-- ==== Proof.Bridge.lean ====
/-
  The two programs' second-layer outputs are one function of the inputs.

  The reference gathers the 512-wide first-layer rows over the edges, adds the node's own row and multiplies the sum
  by the second layer's one-column weight; the kernel multiplies every row by that column first and gathers the
  resulting scalars. With every input entry a real number these agree (`qRef_eq_qKer`: a finite sum of products
  distributes), and what follows — bias, positive part, the 1 × 1 weight, bias — is the same on both sides.
-/
import proofs.«413825_j74285754351849_2_alg».proof.Proof.KHost
import proofs.«413825_j74285754351849_2_alg».proof.Proof.PArr
import proofs.«413825_j74285754351849_2_alg».proof.Proof.RefValue
import proofs.«413825_j74285754351849_2_alg».proof.Proof.Law
import Idealize.ShloMosaic.Lib.Pipeline.Value
import Idealize.ShloMosaic.Lib.ValueLayout

noncomputable section

namespace Cert.Gin

open Idealize.ShloMosaic Idealize.ShloMosaic.ValueIdx
open Cert.KernelIdeal Cert.KernelIdeal.Facts₀ Cert.KernelIdeal.Facts

/-- A row of the kernel's projected array is the projection of the first layer's output row, when the region's
    inputs are the host's: the aggregated array, the weights through a change of format (the identity on the extended
    reals), the biases laid out as one row. -/
theorem row_of_kernel (x0 : FVec Ideal S100000x512 .f32) (x3 : FVec Ideal S512x512 .f32) (x4 : FVec Ideal S512 .f32)
    (x5 : FVec Ideal S512x512 .f32) (x6 : FVec Ideal S512 .f32) (x7 : FVec Ideal S512x1 .f32) (s d : IVec S150000 32)
    (hmask : ∀ e : S150000.Idx, IntOp.cmpi .sge (kWrap s e) 0#32 = 1#1 ∧ IntOp.cmpi .sle (kWrap s e) 99999#32 = 1#1)
    (r : Fin 100000) :
    pArr x0 (kAgg (F := Ideal) x0 s d) (truncf .bf16 x3 bitsLt_bf16_f32) (shapeCast S1x512 x4 shapeCasts_S512_S1x512)
        (truncf .bf16 x5 bitsLt_bf16_f32) (shapeCast S1x512 x6 shapeCasts_S512_S1x512) (truncf .bf16 x7 bitsLt_bf16_f32) (ix2 r 0)
      = proj (hRow (fun r i => x0 (ix2 r i)) (fun i j => x3 (ix2 i j)) (fun j => x4 (ix1 j)) (fun j k => x5 (ix2 j k))
          (fun k => x6 (ix1 k)) (kIdxB s) (kDstB d) r) (fun k => x7 (ix2 k 0)) := by
  rw [pArr_apply]
  unfold hRow zRow
  have hz : (fun k : Fin 512 => kAgg (F := Ideal) x0 s d (ix2 r k) + x0 (ix2 r k))
      = fun i => gathered (kIdxB s) (kDstB d) (fun s' => x0 (ix2 s' i)) r + x0 (ix2 r i) := by
    funext k; rw [kAgg_apply s hmask x0 d r k]
  have ha : (fun j : Fin 512 => shapeCast S1x512 x4 shapeCasts_S512_S1x512 (ix2 0 j)) = fun j => x4 (ix1 j) := by
    funext j; exact shapeCast_a_1a_apply x4 shapeCasts_S512_S1x512 0 j
  have hb : (fun j : Fin 512 => shapeCast S1x512 x6 shapeCasts_S512_S1x512 (ix2 0 j)) = fun j => x6 (ix1 j) := by
    funext j; exact shapeCast_a_1a_apply x6 shapeCasts_S512_S1x512 0 j
  rw [hz, ha, hb]
  rfl

/-- THE BRIDGE: the kernel's second-layer output, computed from its projected array, is the reference's. -/
theorem h2_bridge (x0 : FVec Ideal S100000x512 .f32) (x1 : IVec S2x150000 32) (x3 : FVec Ideal S512x512 .f32)
    (x4 : FVec Ideal S512 .f32) (x5 : FVec Ideal S512x512 .f32) (x6 : FVec Ideal S512 .f32) (x7 : FVec Ideal S512x1 .f32)
    (x8 : FVec Ideal S1 .f32) (x9 : FVec Ideal S1x1 .f32) (x10 : FVec Ideal S1 .f32) (s d : IVec S150000 32)
    (hs : kIdxB s = Cert.ReferenceIdeal.Read.val_main_v9 (F := Ideal) x1) (hd : kDstB d = Cert.ReferenceIdeal.Read.val_main_v12 (F := Ideal) x1)
    (hmask : ∀ e : S150000.Idx, IntOp.cmpi .sge (kWrap s e) 0#32 = 1#1 ∧ IntOp.cmpi .sle (kWrap s e) 99999#32 = 1#1)
    (h0 : ∀ i, ∃ y : ℝ, x0 i = (y : EReal)) (h3 : ∀ i, ∃ y : ℝ, x3 i = (y : EReal)) (h4 : ∀ i, ∃ y : ℝ, x4 i = (y : EReal))
    (h5 : ∀ i, ∃ y : ℝ, x5 i = (y : EReal)) (h6 : ∀ i, ∃ y : ℝ, x6 i = (y : EReal)) (h7 : ∀ i, ∃ y : ℝ, x7 i = (y : EReal)) :
    kH2 (F := Ideal) (pArr x0 (kAgg (F := Ideal) x0 s d) (truncf .bf16 x3 bitsLt_bf16_f32) (shapeCast S1x512 x4 shapeCasts_S512_S1x512)
        (truncf .bf16 x5 bitsLt_bf16_f32) (shapeCast S1x512 x6 shapeCasts_S512_S1x512) (truncf .bf16 x7 bitsLt_bf16_f32)) s d x8 x9 x10
      = Cert.ReferenceIdeal.Read.val_main_v47 (F := Ideal) x0 x1 x3 x4 x5 x6 x7 x8 x9 x10 := by
  funext i
  obtain ⟨n, q, rfl⟩ : ∃ (n : Fin 100000) (q : Fin 1), i = ix2 n q := ⟨i 0, i 1, eq_ix2 i⟩
  obtain rfl : q = 0 := Subsingleton.elim _ _
  refine (kH2_apply s hmask _ d x8 x9 x10 n).trans ?_
  refine Eq.trans ?_ (ref_h2_apply x0 x1 x3 x4 x5 x6 x7 x8 x9 x10 n).symm
  rw [← hs, ← hd,
    qRef_eq_qKer (fun r i => x0 (ix2 r i)) (fun i j => x3 (ix2 i j)) (fun j => x4 (ix1 j)) (fun j k => x5 (ix2 j k))
      (fun k => x6 (ix1 k)) (kIdxB s) (kDstB d) (fun k => x7 (ix2 k 0))
      (fun r i => h0 _) (fun i j => h3 _) (fun j => h4 _) (fun j k => h5 _) (fun k => h6 _) (fun k => h7 _) n]
  unfold qKer
  have hrow : ∀ r : Fin 100000, pArr x0 (kAgg (F := Ideal) x0 s d) (truncf .bf16 x3 bitsLt_bf16_f32) (shapeCast S1x512 x4 shapeCasts_S512_S1x512)
        (truncf .bf16 x5 bitsLt_bf16_f32) (shapeCast S1x512 x6 shapeCasts_S512_S1x512) (truncf .bf16 x7 bitsLt_bf16_f32) (ix2 r 0)
      = proj (hRow (fun r i => x0 (ix2 r i)) (fun i j => x3 (ix2 i j)) (fun j => x4 (ix1 j)) (fun j k => x5 (ix2 j k))
          (fun k => x6 (ix1 k)) (kIdxB s) (kDstB d) r) (fun k => x7 (ix2 k 0)) :=
    fun r => row_of_kernel x0 x3 x4 x5 x6 x7 s d hmask r
  simp only [hrow]

/-- The mean pool over the graphs is the same operations in both programs, applied to the second layer's output. -/
theorem pool_bridge (x0 : FVec Ideal S100000x512 .f32) (x1 : IVec S2x150000 32) (x2 : IVec S100000 32) (x3 : FVec Ideal S512x512 .f32)
    (x4 : FVec Ideal S512 .f32) (x5 : FVec Ideal S512x512 .f32) (x6 : FVec Ideal S512 .f32) (x7 : FVec Ideal S512x1 .f32)
    (x8 : FVec Ideal S1 .f32) (x9 : FVec Ideal S1x1 .f32) (x10 : FVec Ideal S1 .f32) :
    Cert.ReferenceIdeal.Read.val_main_v57 (F := Ideal) x0 x1 x2 x3 x4 x5 x6 x7 x8 x9 x10
      = kOut (F := Ideal) (Cert.ReferenceIdeal.Read.val_main_v47 (F := Ideal) x0 x1 x3 x4 x5 x6 x7 x8 x9 x10) x2 := rfl

end Cert.Gin

end
-- ==== Proof.PreFacts.lean ====
/-
  What the precondition says, decoded.

  The precondition is a conjunction of ten `jnp.all`s. Nine say `|a| < +∞` at every entry of a float input; over the
  extended reals `|x| = max x (-x)` is strictly below `+∞` exactly when `x` is neither infinity, that is, a real. The
  tenth is about the edges' start words `s` (row 0 of the edge table), wrapped as `w = if s < 0 then s + 100000 else s`:
  it says `0 ≤ w` and `w ≤ 99999`, read signed, at every edge.

  Each `jnp.all` is a reduce by `and` over every axis, from 1; a conjunction of two is an `and` of their scalar results.
  So "the whole is 1" splits, at the scalar shape's one index, into "each reduce is 1", and a reduce by `and` that is 1
  met a 1 at every element. The converse direction, for a reduce over any axes, is here too: a reduce by `and` of ones
  from ones is 1.
-/
import proofs.«413825_j74285754351849_2_alg».proof.Pre_finite_inputs
import proofs.«413825_j74285754351849_2_alg».proof.Proof.Gen.Pre_finite_inputs
import Idealize.ShloMosaic.Lib.ReduceAll
import Idealize.ShloMosaic.Lib.StableHlo.Predicate
import Idealize.ShloMosaic.PureOps.Ideal.Laws
import Idealize.ShloMosaic.Lib.ValueIdx
import Mathlib.Data.EReal.Basic

noncomputable section

namespace Cert.Gin

open Idealize.ShloMosaic Cert.Pre_finite_inputs Cert.Pre_finite_inputs.Facts

/-! ## A reduce by `and` of an all-ones array -/

/-- A left fold by `and` that starts at 1 and meets only 1s is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, hl => by
    refine foldl_andi_of_all f l _ ?_ (fun n hn => hl n (List.mem_cons_of_mem _ hn))
    show IntOp.andi init (f a) = 1#1
    rw [hi, hl a List.mem_cons_self]; rfl

/-- THE CONVERSE of reading a `jnp.all` back: a reduce by `and`, over any axes, of an array of ones from an initial
    value of ones is 1 at every result index. -/
theorem reduce_andi_eq_one_of_all {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl]
  exact foldl_andi_of_all x _ _ (hi _) (fun n _ => hx n)

/-! ## One float conjunct: `|x| < +∞` at every element says every element is a real -/

/-- The word 0x7F800000 (exponent all ones, fraction zero, sign clear) denotes +∞. -/
theorem inf_word : Ideal.ofBits .f32 0x7F800000#32 = ⊤ := by
  simp [Ideal.ofBits, Ideal.ieee]

/-- An extended real whose absolute value `max x (-x)` is strictly below +∞ is neither infinity: it is a real. -/
theorem real_of_abs_lt_inf (x : Ideal .f32)
    (h : FloatOps.cmpf .olt (FloatOps.hostAbsf x) (FloatOps.ofBits (F := Ideal) .f32 0x7F800000#32) = 1#1) : ∃ r : ℝ, x = (r : EReal) := by
  have h' : Ideal.cmp .olt (max x (-x)) (Ideal.ofBits .f32 0x7F800000#32) = 1#1 := h
  rw [inf_word] at h'
  simp only [Ideal.cmp, StableHlo.Predicate.ofBool_eq_one_iff, decide_eq_true_eq] at h'
  induction x using EReal.rec with
  | bot => simp at h'
  | top => simp at h'
  | coe r => exact ⟨r, rfl⟩

/-- The scalar shape has one index. -/
instance subsingleton_S_ : Subsingleton S_.Idx := ⟨fun a b => funext fun d => d.elim0⟩

/-- A printed `jnp.all(|a| < inf)` that is 1: every element of `a` is a real. -/
theorem real_of_all {s : Shape} {axes : List (Fin s.rank)} (a : FVec Ideal s .f32) (hb : S_.BroadcastsInDim s (![] : Fin 0 → Fin s.rank))
    (hr : s.ReducesTo axes S_) (hu : 0 < S_.numel) (init : IVec S_ 1)
    (e : Host.reduce IntOp.andi (cmpf .olt (Host.absf a) (broadcastInDim s ![] hb (constant S_ .f32 0x7F800000#32))) init hr hu ValueIdx.ix0 = 1#1)
    (i : s.Idx) : ∃ r : ℝ, a i = (r : EReal) :=
  real_of_abs_lt_inf (a i) (Host.reduce_andi_all _ init hr hu ValueIdx.ix0 e i)

/-- A conjunction of two scalar masks, read at the one index. -/
theorem and_ix0 (x y : IVec S_ 1) (h : andi x y ValueIdx.ix0 = 1#1) : x ValueIdx.ix0 = 1#1 ∧ y ValueIdx.ix0 = 1#1 :=
  IntOp.andi_eq_one.1 h

/-! ## The integer conjunct: the start words, wrapped, are node numbers -/

/-- Row 0 of the edge table: one start word per edge. -/
def srcWords (a1 : IVec S2x150000 32) : IVec S150000 32 :=
  shapeCast S150000 ((extractStridedSlice S1x150000 ![0, 0] · slices_S2x150000_S1x150000_0_0) a1) shapeCasts_S1x150000_S150000

/-- A start word with a negative one moved up by the node count (a negative index counted from the end). -/
def wrapped (a1 : IVec S2x150000 32) : IVec S150000 32 :=
  select (cmpi .slt (srcWords a1) (broadcastInDim S150000 ![] bcast_S_S150000 (constantI S_ 32 0#32)))
    (addi (srcWords a1) (broadcastInDim S150000 ![] bcast_S_S150000 (constantI S_ 32 100000#32))) (srcWords a1)

/-! ## The precondition, decoded -/

/-- THE PRECONDITION SAYS: every entry of the six float inputs the value depends on is a real, and every wrapped start
    word lies in `[0, 99999]` read signed. The printed function is a left-nested conjunction of ten `jnp.all`s, the
    integer one outermost on the right; each is split off at the scalar shape's one index and read back element by element. -/
theorem facts_of_pre (a0 : FVec Ideal S100000x512 .f32) (a1 : IVec S2x150000 32) (a2 : IVec S100000 32)
    (a3 : FVec Ideal S512x512 .f32) (a4 : FVec Ideal S512 .f32) (a5 : FVec Ideal S512x512 .f32) (a6 : FVec Ideal S512 .f32)
    (a7 : FVec Ideal S512x1 .f32) (a8 : FVec Ideal S1 .f32) (a9 : FVec Ideal S1x1 .f32) (a10 : FVec Ideal S1 .f32)
    (h : Cert.Pre_finite_inputs.fn (F := Ideal) a0 a1 a2 a3 a4 a5 a6 a7 a8 a9 a10 = (fun _ => 1#1)) :
    (∀ i, ∃ x : ℝ, a0 i = (x : EReal)) ∧ (∀ i, ∃ x : ℝ, a3 i = (x : EReal)) ∧ (∀ i, ∃ x : ℝ, a4 i = (x : EReal))
      ∧ (∀ i, ∃ x : ℝ, a5 i = (x : EReal)) ∧ (∀ i, ∃ x : ℝ, a6 i = (x : EReal)) ∧ (∀ i, ∃ x : ℝ, a7 i = (x : EReal))
      ∧ (∀ e : S150000.Idx, IntOp.cmpi .sge (wrapped a1 e) 0#32 = 1#1 ∧ IntOp.cmpi .sle (wrapped a1 e) 99999#32 = 1#1) := by
  have h0 : Cert.Pre_finite_inputs.fn (F := Ideal) a0 a1 a2 a3 a4 a5 a6 a7 a8 a9 a10 ValueIdx.ix0 = 1#1 := congrFun h ValueIdx.ix0
  dsimp only [fn, fn_part1, fn_part2, fn_part3] at h0
  -- the ten conjuncts, outermost first
  obtain ⟨h43, h63⟩ := and_ix0 _ _ h0
  obtain ⟨h38, -⟩ := and_ix0 _ _ h43
  obtain ⟨h33, -⟩ := and_ix0 _ _ h38
  obtain ⟨h28, -⟩ := and_ix0 _ _ h33
  obtain ⟨h23, h27⟩ := and_ix0 _ _ h28
  obtain ⟨h18, h22⟩ := and_ix0 _ _ h23
  obtain ⟨h13, h17⟩ := and_ix0 _ _ h18
  obtain ⟨h8, h12⟩ := and_ix0 _ _ h13
  obtain ⟨h3, h7⟩ := and_ix0 _ _ h8
  refine ⟨real_of_all a0 _ _ _ _ h3, real_of_all a3 _ _ _ _ h7, real_of_all a4 _ _ _ _ h12, real_of_all a5 _ _ _ _ h17,
    real_of_all a6 _ _ _ _ h22, real_of_all a7 _ _ _ _ h27, fun e => ?_⟩
  -- the integer conjunct at edge e: the conjunction of the two comparisons, each against a splat constant
  exact IntOp.andi_eq_one.1 (Host.reduce_andi_all _ _ _ _ ValueIdx.ix0 h63 e)

end Cert.Gin
end
-- ==== Proof.KRun.lean ====
/-
  The kernel program's run, read: what its host operations hand the region, what they make of the region's output,
  and that the result is the reference's.
-/
import proofs.«413825_j74285754351849_2_alg».proof.Proof.KernelIdealFrame
import proofs.«413825_j74285754351849_2_alg».proof.Proof.KBlocks
import proofs.«413825_j74285754351849_2_alg».proof.Proof.KHost
import proofs.«413825_j74285754351849_2_alg».proof.Proof.Bridge
import proofs.«413825_j74285754351849_2_alg».proof.Proof.PreFacts
import Idealize.ShloMosaic.Lib.StableHlo.Run

set_option maxRecDepth 16384

noncomputable section

namespace Cert.Gin

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The inputs and the edge words as the region finds them, each at its literal type. -/
abbrev a0 (c : Dev nD) : S100000x512.Idx → EReal := m ((c : Thread nD τ).loc main_arg0)
abbrev a1 (c : Dev nD) : IVec S2x150000 32 := m ((c : Thread nD τ).loc main_arg1)
abbrev a2 (c : Dev nD) : IVec S100000 32 := m ((c : Thread nD τ).loc main_arg2)
abbrev a3 (c : Dev nD) : S512x512.Idx → EReal := m ((c : Thread nD τ).loc main_arg3)
abbrev a4 (c : Dev nD) : S512.Idx → EReal := m ((c : Thread nD τ).loc main_arg4)
abbrev a5 (c : Dev nD) : S512x512.Idx → EReal := m ((c : Thread nD τ).loc main_arg5)
abbrev a6 (c : Dev nD) : S512.Idx → EReal := m ((c : Thread nD τ).loc main_arg6)
abbrev a7 (c : Dev nD) : S512x1.Idx → EReal := m ((c : Thread nD τ).loc main_arg7)
abbrev a8 (c : Dev nD) : S1.Idx → EReal := m ((c : Thread nD τ).loc main_arg8)
abbrev a9 (c : Dev nD) : S1x1.Idx → EReal := m ((c : Thread nD τ).loc main_arg9)
abbrev a10 (c : Dev nD) : S1.Idx → EReal := m ((c : Thread nD τ).loc main_arg10)
/-- The source and destination words of the edges: rows 0 and 1 of the edge array. -/
abbrev srcW (c : Dev nD) : IVec S150000 32 := V m c main_v1
abbrev dstW (c : Dev nD) : IVec S150000 32 := V m c main_v3

set_option maxHeartbeats 16000000 in
/-- What the host hands the region: the aggregated neighbour features, the weights in the narrower format, the biases
    as rows. -/
theorem head_eq (c : Dev nD) :
    aggA m c = kAgg (F := Ideal) (a0 m c) (srcW m c) (dstW m c)
    ∧ waA m c = truncf (F := Ideal) .bf16 (a3 m c) bitsLt_bf16_f32
    ∧ baA m c = shapeCast S1x512 (a4 m c) shapeCasts_S512_S1x512
    ∧ wbA m c = truncf (F := Ideal) .bf16 (a5 m c) bitsLt_bf16_f32
    ∧ bbA m c = shapeCast S1x512 (a6 m c) shapeCasts_S512_S1x512
    ∧ w2A m c = truncf (F := Ideal) .bf16 (a7 m c) bitsLt_bf16_f32 := by
  refine ⟨?_, ?_, ?_, ?_, ?_, ?_⟩ <;>
  · dsimp only [aggA, waA, baA, wbA, bbA, w2A, a0, a3, a4, a5, a6, a7, srcW, dstW, V, V0]
    simp only [hostOps0, hostOps0_1, hostOps0_2, List.flatten_cons, List.flatten_nil, List.append_nil, List.cons_append, List.nil_append]
    after_results_simp
    try simp only [TRef.ofBuf, TRef.toBuf, cast_eq]
    try rfl

set_option maxHeartbeats 16000000 in
/-- The edge words are rows 0 and 1 of the edge array. -/
theorem src_eq (c : Dev nD) :
    srcW m c = shapeCast S150000 (extractStridedSlice S1x150000 ![0, 0] (a1 m c) slices_S2x150000_S1x150000_0_0) shapeCasts_S1x150000_S150000 := by
  dsimp only [srcW, a1, V, V0]
  simp only [hostOps0, hostOps0_1, hostOps0_2, List.flatten_cons, List.flatten_nil, List.append_nil, List.cons_append, List.nil_append]
  after_results_simp
  try simp only [TRef.ofBuf, TRef.toBuf, cast_eq]
  rfl

set_option maxHeartbeats 16000000 in
theorem dst_eq (c : Dev nD) :
    dstW m c = shapeCast S150000 (extractStridedSlice S1x150000 ![1, 0] (a1 m c) slices_S2x150000_S1x150000_1_0) shapeCasts_S1x150000_S150000 := by
  dsimp only [dstW, a1, V, V0]
  simp only [hostOps0, hostOps0_1, hostOps0_2, List.flatten_cons, List.flatten_nil, List.append_nil, List.cons_append, List.nil_append]
  after_results_simp
  try simp only [TRef.ofBuf, TRef.toBuf, cast_eq]
  rfl

set_option maxHeartbeats 32000000 in
/-- What the host makes of the region's output: the second layer's remaining steps and the mean pool. -/
theorem tail_eq (c : Dev nD) :
    (Pipeline.afterTail₀ cfgs (dats m) 0 (V0 m) [hostOps1, hostOps1_1] c main_v39 : S64x1.Idx → EReal)
      = kOut (F := Ideal) (kH2 (F := Ideal) ((dats m 0 c).arrAt 7 cfg0.N) (srcW m c) (dstW m c) (a8 m c) (a9 m c) (a10 m c)) (a2 m c) := by
  have e13 : Pipeline.withArrays (cfgs 0).spec c (V0 m c) (fun w => (dats m 0 c).arrAt w (cfgs 0).N) (Proc.tc.devRef main_v13)
      = (dats m 0 c).arrAt 7 cfg0.N := Pipeline.withArrays_arr spec0 launch0.win.arr_inj c _ _ 7
  have e1 : Pipeline.withArrays (cfgs 0).spec c (V0 m c) (fun w => (dats m 0 c).arrAt w (cfgs 0).N) (Proc.tc.devRef main_v1)
      = srcW m c := Pipeline.withArrays_of_ne _ c (V0 m c) _ main_v1 (by exact (by decide : ∀ w, Pipeline.arrRef spec0 w ≠ main_v1))
  have e3 : Pipeline.withArrays (cfgs 0).spec c (V0 m c) (fun w => (dats m 0 c).arrAt w (cfgs 0).N) (Proc.tc.devRef main_v3)
      = dstW m c := Pipeline.withArrays_of_ne _ c (V0 m c) _ main_v3 (by exact (by decide : ∀ w, Pipeline.arrRef spec0 w ≠ main_v3))
  have e2 : Pipeline.withArrays (cfgs 0).spec c (V0 m c) (fun w => (dats m 0 c).arrAt w (cfgs 0).N) (Proc.tc.devRef main_arg2)
      = a2 m c := (Pipeline.withArrays_of_ne _ c (V0 m c) _ main_arg2 (by exact (by decide : ∀ w, Pipeline.arrRef spec0 w ≠ main_arg2))).trans (V_main_arg2 m c)
  have e8 : Pipeline.withArrays (cfgs 0).spec c (V0 m c) (fun w => (dats m 0 c).arrAt w (cfgs 0).N) (Proc.tc.devRef main_arg8)
      = a8 m c := (Pipeline.withArrays_of_ne _ c (V0 m c) _ main_arg8 (by exact (by decide : ∀ w, Pipeline.arrRef spec0 w ≠ main_arg8))).trans (V_main_arg8 m c)
  have e9 : Pipeline.withArrays (cfgs 0).spec c (V0 m c) (fun w => (dats m 0 c).arrAt w (cfgs 0).N) (Proc.tc.devRef main_arg9)
      = a9 m c := (Pipeline.withArrays_of_ne _ c (V0 m c) _ main_arg9 (by exact (by decide : ∀ w, Pipeline.arrRef spec0 w ≠ main_arg9))).trans (V_main_arg9 m c)
  have e10 : Pipeline.withArrays (cfgs 0).spec c (V0 m c) (fun w => (dats m 0 c).arrAt w (cfgs 0).N) (Proc.tc.devRef main_arg10)
      = a10 m c := (Pipeline.withArrays_of_ne _ c (V0 m c) _ main_arg10 (by exact (by decide : ∀ w, Pipeline.arrRef spec0 w ≠ main_arg10))).trans (V_main_arg10 m c)
  unfold Pipeline.afterTail₀
  simp only [hostOps1, hostOps1_1, List.flatten_cons, List.flatten_nil, List.append_nil, List.cons_append, List.nil_append]
  after_results_simp
  simp only [TRef.ofBuf, TRef.toBuf, cast_eq]
  rw [e13, e1, e3, e2, e8, e9, e10]
  rfl

/-- THE RESULT: under the precondition the kernel program's result array is the reference's stage function of the
    same inputs. -/
theorem result_eq (c : Dev nD)
    (hpre : Cert.Pre_finite_inputs.fn (F := Ideal) (a0 m c) (a1 m c) (a2 m c) (a3 m c) (a4 m c) (a5 m c) (a6 m c) (a7 m c) (a8 m c) (a9 m c) (a10 m c) = (fun _ => 1#1)) :
    (Pipeline.afterTail₀ cfgs (dats m) 0 (V0 m) [hostOps1, hostOps1_1] c main_v39 : S64x1.Idx → EReal)
      = Cert.ReferenceIdeal.Read.val_main_v57 (F := Ideal) (a0 m c) (a1 m c) (a2 m c) (a3 m c) (a4 m c) (a5 m c) (a6 m c) (a7 m c) (a8 m c) (a9 m c) (a10 m c) := by
  obtain ⟨h0, h3, h4, h5, h6, h7, hw⟩ := facts_of_pre _ _ _ _ _ _ _ _ _ _ _ hpre
  obtain ⟨hagg, hwa, hba, hwb, hbb, hw2⟩ := head_eq m c
  rw [tail_eq, final, pool_bridge]
  have hs : kIdxB (srcW m c) = Cert.ReferenceIdeal.Read.val_main_v9 (F := Ideal) (a1 m c) := by rw [src_eq]; rfl
  have hd : kDstB (dstW m c) = Cert.ReferenceIdeal.Read.val_main_v12 (F := Ideal) (a1 m c) := by rw [dst_eq]; rfl
  have hmask : ∀ e : S150000.Idx, IntOp.cmpi .sge (kWrap (srcW m c) e) 0#32 = 1#1 ∧ IntOp.cmpi .sle (kWrap (srcW m c) e) 99999#32 = 1#1 := by
    rw [src_eq]; exact hw
  rw [hagg, hwa, hba, hwb, hbb, hw2]
  exact congrArg (fun h => kOut (F := Ideal) h (a2 m c))
    (h2_bridge (a0 m c) (a1 m c) (a3 m c) (a4 m c) (a5 m c) (a6 m c) (a7 m c) (a8 m c) (a9 m c) (a10 m c) (srcW m c) (dstW m c) hs hd hmask h0 h3 h4 h5 h6 h7)

/-- The kernel program's final state, read off the frame run's post: the result array at the tail's value, every
    argument array unchanged. -/
theorem kernel_post (r) (h : Pipeline.FramePost cfgs (dats m) 0 (Pipeline.afterTail₀ cfgs (dats m) 0 (V0 m) [hostOps1, hostOps1_1]) r) (c : Dev nD) :
    r.2.mem ((c.tc : Thread nD τ).loc main_v39) = Pipeline.afterTail₀ cfgs (dats m) 0 (V0 m) [hostOps1, hostOps1_1] c main_v39
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  ⟨(h c).2 main_v39 (Pipeline.mem_restRefs_of main_v39 (by decide) (by decide)),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c)⟩

end Cert.Gin

end
-- ==== Proof.lean ====
/-
  The certificate of a two-layer graph network with sum aggregation over the edges and a mean pool over the graphs:
  the Pallas kernel program against its jnp reference, over the extended reals.

  Both programs compute, per node, the first layer `h1 = relu (relu ((agg + x) · W1a + b1a) · W1b + b1b)` with
  `agg` the sum of the source rows of the edges into the node. For the second layer the reference sums the 512-wide
  rows `h1` over the edges, adds the node's own row, and multiplies by the one-column weight `W2a`; the kernel
  multiplies each row by `W2a` inside its region (one block of 2000 rows per grid point) and sums the scalars over
  the edges. A finite sum of real products distributes, so the two agree once every float input is finite; the rest —
  bias, positive part, the 1 × 1 weight, bias, the mean over each graph — is the same operations on both sides.

  The precondition also keeps every source index, after the negative-index wrap, inside the node range: there the
  kernel's gather (which fills rows whose index is out of range) and the reference's (which clamps) read the same rows.

  The three frames: the kernel programs' are the generated frame runs; the reference's is its generated run with the
  result dropped. The idealization rewrote nothing, so `preserves` is trivial.
-/
import proofs.«413825_j74285754351849_2_alg».proof.Defs
import proofs.«413825_j74285754351849_2_alg».proof.Proof.Gen.Kernel
import proofs.«413825_j74285754351849_2_alg».proof.Proof.Gen.KernelIdeal
import proofs.«413825_j74285754351849_2_alg».proof.Proof.Gen.ReferenceIdeal
import proofs.«413825_j74285754351849_2_alg».proof.Proof.Gen.Pre_finite_inputs
import proofs.«413825_j74285754351849_2_alg».proof.Proof.Gen.ReferenceIdeal.Run
import proofs.«413825_j74285754351849_2_alg».proof.Proof.Gen.ReferenceIdeal.Read
import proofs.«413825_j74285754351849_2_alg».proof.Proof.KernelFrame
import proofs.«413825_j74285754351849_2_alg».proof.Proof.KernelIdealFrame
import proofs.«413825_j74285754351849_2_alg».proof.Proof.KRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the mean-pooled second-layer output of the same inputs: the kernel's by its frame run and
    the host operations around the region, the reference's by its run; equal by `Cert.Gin.result_eq`. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
      [Cert.KernelIdeal.Gen.hostOps1, Cert.KernelIdeal.Gen.hostOps1_1] c Cert.KernelIdeal.main_v39, ?_, ?_⟩
  · exact (θ_run Cert.KernelIdeal.defs _ _).mono (fun r h c => Cert.Gin.kernel_post m r h c) (Cert.KernelIdeal.Gen.run_main m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10⟩ := hagree c
    rw [Cert.ReferenceIdeal.Read.val_main_v57_eq, g0, g1, g2, g3, g4, g5, g6, g7, g8, g9, g10]
    exact (Cert.Gin.result_eq m c (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
